-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50000 : Shape := ⟨2, ![8, 50000]⟩
abbrev S8x800000 : Shape := ⟨2, ![8, 800000]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S8x50000 : S_.BroadcastsInDim S8x50000 (![] : Fin 0 → Fin S8x50000.rank)
  reducesTo_S8x50000_S_d0_1 : S8x50000.ReducesTo [0, 1] S_
  h_S_ : 0 < S_.numel
  bcast_S_S8x800000 : S_.BroadcastsInDim S8x800000 (![] : Fin 0 → Fin S8x800000.rank)
  reducesTo_S8x800000_S_d0_1 : S8x800000.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v28 : IVec S_ 1) (main_v32 : IVec S800000 1) (main_v34 : IVec S800000 32) : IVec S_ 1 :=
  let main_c_11 : IVec S_ 32 := constantI S_ 32 50000#32
  let main_v35 : IVec S800000 32 := broadcastInDim S800000 ![] bcast_S_S800000 main_c_11
  let main_v36 : IVec S800000 1 := cmpi .slt main_v34 main_v35
  let main_v37 : IVec S800000 1 := andi main_v32 main_v36
  let main_c_12 : IVec S_ 1 := constantI S_ 1 1#1
  let main_v38 : IVec S_ 1 := (fun x v => Host.reduce IntOp.andi x v reducesTo_S800000_S_d0 h_S_) main_v37 main_c_12
  let main_v39 : IVec S_ 1 := andi main_v28 main_v38
  main_v39

def fn_part1 {F : FTy → Type} [FloatOps F] (main_arg4 : FVec F S8x50000 .f32) (main_arg5 : FVec F S8x50000 .f32) (main_arg6 : IVec S2x800000 32) (main_v13 : IVec S_ 1) (main_v16 : IVec S8x800000 1) : IVec S_ 1 :=
  let main_c_5 : IVec S_ 1 := constantI S_ 1 1#1
  let main_v17 : IVec S_ 1 := (fun x v => Host.reduce IntOp.andi x v reducesTo_S8x800000_S_d0_1 h_S_) main_v16 main_c_5
  let main_v18 : IVec S_ 1 := andi main_v13 main_v17
  let main_v19 : FVec F S8x50000 .f32 := Host.absf main_arg4
  let main_cst_6 : FVec F S_ .f32 := constant S_ .f32 0x7F800000#32
  let main_v20 : FVec F S8x50000 .f32 := broadcastInDim S8x50000 ![] bcast_S_S8x50000 main_cst_6
  let main_v21 : IVec S8x50000 1 := cmpf .olt main_v19 main_v20
  let main_c_7 : IVec S_ 1 := constantI S_ 1 1#1
  let main_v22 : IVec S_ 1 := (fun x v => Host.reduce IntOp.andi x v reducesTo_S8x50000_S_d0_1 h_S_) main_v21 main_c_7
  let main_v23 : IVec S_ 1 := andi main_v18 main_v22
  let main_v24 : FVec F S8x50000 .f32 := Host.absf main_arg5
  let main_cst_8 : FVec F S_ .f32 := constant S_ .f32 0x7F800000#32
  let main_v25 : FVec F S8x50000 .f32 := broadcastInDim S8x50000 ![] bcast_S_S8x50000 main_cst_8
  let main_v26 : IVec S8x50000 1 := cmpf .olt main_v24 main_v25
  let main_c_9 : IVec S_ 1 := constantI S_ 1 1#1
  let main_v27 : IVec S_ 1 := (fun x v => Host.reduce IntOp.andi x v reducesTo_S8x50000_S_d0_1 h_S_) main_v26 main_c_9
  let main_v28 : IVec S_ 1 := andi main_v23 main_v27
  let main_v29 : IVec S1x800000 32 := (extractStridedSlice S1x800000 ![1, 0] · slices_S2x800000_S1x800000_1_0) main_arg6
  let main_v30 : IVec S800000 32 := shapeCast S800000 main_v29 shapeCasts_S1x800000_S800000
  let main_c_10 : IVec S_ 32 := constantI S_ 32 0#32
  let main_v31 : IVec S800000 32 := broadcastInDim S800000 ![] bcast_S_S800000 main_c_10
  let main_v32 : IVec S800000 1 := cmpi .sge main_v30 main_v31
  let main_v33 : IVec S1x800000 32 := (extractStridedSlice S1x800000 ![1, 0] · slices_S2x800000_S1x800000_1_0) main_arg6
  let main_v34 : IVec S800000 32 := shapeCast S800000 main_v33 shapeCasts_S1x800000_S800000
  fn_part2 (F := F) main_v28 main_v32 main_v34

def fn {F : FTy → Type} [FloatOps F] (main_arg0 : FVec F S8x50000 .f32) (main_arg1 : FVec F S8x50000 .f32) (main_arg2 : FVec F S8x800000 .f32) (main_arg3 : FVec F S8x800000 .f32) (main_arg4 : FVec F S8x50000 .f32) (main_arg5 : FVec F S8x50000 .f32) (main_arg6 : IVec S2x800000 32) : IVec S_ 1 :=
  let main_v0 : FVec F S8x50000 .f32 := Host.absf main_arg0
  let main_cst : FVec F S_ .f32 := constant S_ .f32 0x7F800000#32
  let main_v1 : FVec F S8x50000 .f32 := broadcastInDim S8x50000 ![] bcast_S_S8x50000 main_cst
  let main_v2 : IVec S8x50000 1 := cmpf .olt main_v0 main_v1
  let main_c : IVec S_ 1 := constantI S_ 1 1#1
  let main_v3 : IVec S_ 1 := (fun x v => Host.reduce IntOp.andi x v reducesTo_S8x50000_S_d0_1 h_S_) main_v2 main_c
  let main_v4 : FVec F S8x50000 .f32 := Host.absf main_arg1
  let main_cst_0 : FVec F S_ .f32 := constant S_ .f32 0x7F800000#32
  let main_v5 : FVec F S8x50000 .f32 := broadcastInDim S8x50000 ![] bcast_S_S8x50000 main_cst_0
  let main_v6 : IVec S8x50000 1 := cmpf .olt main_v4 main_v5
  let main_c_1 : IVec S_ 1 := constantI S_ 1 1#1
  let main_v7 : IVec S_ 1 := (fun x v => Host.reduce IntOp.andi x v reducesTo_S8x50000_S_d0_1 h_S_) main_v6 main_c_1
  let main_v8 : IVec S_ 1 := andi main_v3 main_v7
  let main_v9 : FVec F S8x800000 .f32 := Host.absf main_arg2
  let main_cst_2 : FVec F S_ .f32 := constant S_ .f32 0x7F800000#32
  let main_v10 : FVec F S8x800000 .f32 := broadcastInDim S8x800000 ![] bcast_S_S8x800000 main_cst_2
  let main_v11 : IVec S8x800000 1 := cmpf .olt main_v9 main_v10
  let main_c_3 : IVec S_ 1 := constantI S_ 1 1#1
  let main_v12 : IVec S_ 1 := (fun x v => Host.reduce IntOp.andi x v reducesTo_S8x800000_S_d0_1 h_S_) main_v11 main_c_3
  let main_v13 : IVec S_ 1 := andi main_v8 main_v12
  let main_v14 : FVec F S8x800000 .f32 := Host.absf main_arg3
  let main_cst_4 : FVec F S_ .f32 := constant S_ .f32 0x7F800000#32
  let main_v15 : FVec F S8x800000 .f32 := broadcastInDim S8x800000 ![] bcast_S_S8x800000 main_cst_4
  let main_v16 : IVec S8x800000 1 := cmpf .olt main_v14 main_v15
  fn_part1 (F := F) main_arg4 main_arg5 main_arg6 main_v13 main_v16
-- ==== Kernel.lean ====
abbrev S8x50000 : Shape := ⟨2, ![8, 50000]⟩
abbrev S8x800000 : Shape := ⟨2, ![8, 800000]⟩
abbrev S2x800000 : Shape := ⟨2, ![2, 800000]⟩
abbrev S1x800000 : Shape := ⟨2, ![1, 800000]⟩
abbrev S800000 : Shape := ⟨1, ![800000]⟩
abbrev S1x8x50000 : Shape := ⟨3, ![1, 8, 50000]⟩
abbrev S2x8x50000 : Shape := ⟨3, ![2, 8, 50000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S2x8x800000 : Shape := ⟨3, ![2, 8, 800000]⟩
abbrev S1x8x800000 : Shape := ⟨3, ![1, 8, 800000]⟩
abbrev S8x32000 : Shape := ⟨2, ![8, 32000]⟩
abbrev S8 : Shape := ⟨1, ![8]⟩

abbrev nBuf : Space → Nat
  | .hbm => 123
  | .vmem => 16
  | .smem => 0
  | _ => 0

abbrev bufTy : (tb : Table) → Fin (tcTables nBuf tb) → BufTy
  | .hbm, ⟨0, _⟩ => ⟨S8x50000, .f32⟩
  | .hbm, ⟨1, _⟩ => ⟨S8x50000, .f32⟩
  | .hbm, ⟨2, _⟩ => ⟨S8x800000, .f32⟩
  | .hbm, ⟨3, _⟩ => ⟨S8x800000, .f32⟩
  | .hbm, ⟨4, _⟩ => ⟨S8x50000, .f32⟩
  | .hbm, ⟨5, _⟩ => ⟨S8x50000, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S1x8x50000, .f32⟩
  | .hbm, ⟨12, _⟩ => ⟨S1x8x50000, .f32⟩
  | .hbm, ⟨13, _⟩ => ⟨S2x8x50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S2x8x800000, .f32⟩
  | .hbm, ⟨33, _⟩ => ⟨S2x8x800000, .i1⟩
  | .hbm, ⟨34, _⟩ => ⟨S_, .f32⟩
  | .hbm, ⟨35, _⟩ => ⟨S2x8x800000, .f32⟩
  | .hbm, ⟨36, _⟩ => ⟨S2x8x800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S2x8x800000, .f32⟩
  | .hbm, ⟨56, _⟩ => ⟨S2x8x800000, .i1⟩
  | .hbm, ⟨57, _⟩ => ⟨S_, .f32⟩
  | .hbm, ⟨58, _⟩ => ⟨S2x8x800000, .f32⟩
  | .hbm, ⟨59, _⟩ => ⟨S2x8x800000, .f32⟩
  | .hbm, ⟨60, _⟩ => ⟨S1x8x800000, .f32⟩
  | .hbm, ⟨61, _⟩ => ⟨S8x800000, .f32⟩
  | .hbm, ⟨62, _⟩ => ⟨S1x8x800000, .f32⟩
  | .hbm, ⟨63, _⟩ => ⟨S8x800000, .f32⟩
  | .hbm, ⟨64, _⟩ => ⟨S1x8x800000, .f32⟩
  | .hbm, ⟨65, _⟩ => ⟨S8x800000, .f32⟩
  | .hbm, ⟨66, _⟩ => ⟨S1x8x800000, .f32⟩
  | .hbm, ⟨67, _⟩ => ⟨S8x800000, .f32⟩
  | .hbm, ⟨68, _⟩ => ⟨S8x800000, .f32⟩
  | .hbm, ⟨69, _⟩ => ⟨S8x800000, .f32⟩
  | .hbm, ⟨70, _⟩ => ⟨S1x8x800000, .f32⟩
  | .hbm, ⟨71, _⟩ => ⟨S1x8x800000, .f32⟩
  | .hbm, ⟨72, _⟩ => ⟨S2x8x800000, .f32⟩
  | .hbm, ⟨73, _⟩ => ⟨S_, .f32⟩
  | .hbm, ⟨74, _⟩ => ⟨S2x8x50000, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S2x8x50000, .f32⟩
  | .hbm, ⟨84, _⟩ => ⟨S1x8x50000, .f32⟩
  | .hbm, ⟨85, _⟩ => ⟨S8x50000, .f32⟩
  | .hbm, ⟨86, _⟩ => ⟨S1x8x50000, .f32⟩
  | .hbm, ⟨87, _⟩ => ⟨S8x50000, .f32⟩
  | .hbm, ⟨88, _⟩ => ⟨S8x50000, .f32⟩
  | .hbm, ⟨89, _⟩ => ⟨S8x50000, .f32⟩
  | .hbm, ⟨90, _⟩ => ⟨S8x50000, .f32⟩
  | .hbm, ⟨91, _⟩ => ⟨S8x50000, .f32⟩
  | .hbm, ⟨92, _⟩ => ⟨S8x50000, .f32⟩
  | .hbm, ⟨93, _⟩ => ⟨S_, .f32⟩
  | .hbm, ⟨94, _⟩ => ⟨S8, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S8x50000, .f32⟩
  | .hbm, ⟨101, _⟩ => ⟨S8x50000, .f32⟩
  | .hbm, ⟨102, _⟩ => ⟨S_, .f32⟩
  | .hbm, ⟨103, _⟩ => ⟨S8x50000, .f32⟩
  | .hbm, ⟨104, _⟩ => ⟨S8x50000, .f32⟩
  | .hbm, ⟨105, _⟩ => ⟨S_, .f32⟩
  | .hbm, ⟨106, _⟩ => ⟨S8x50000, .f32⟩
  | .hbm, ⟨107, _⟩ => ⟨S8x50000, .f32⟩
  | .hbm, ⟨108, _⟩ => ⟨S_, .f32⟩
  | .hbm, ⟨109, _⟩ => ⟨S8x50000, .f32⟩
  | .hbm, ⟨110, _⟩ => ⟨S8x50000, .f32⟩
  | .hbm, ⟨111, _⟩ => ⟨S8x50000, .f32⟩
  | .hbm, ⟨112, _⟩ => ⟨S8x50000, .f32⟩
  | .hbm, ⟨113, _⟩ => ⟨S8x50000, .f32⟩
  | .hbm, ⟨114, _⟩ => ⟨S_, .f32⟩
  | .hbm, ⟨115, _⟩ => ⟨S8, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .local _ .vmem, ⟨0, _⟩ => ⟨S8x32000, .f32⟩
  | .local _ .vmem, ⟨1, _⟩ => ⟨S8x32000, .f32⟩
  | .local _ .vmem, ⟨2, _⟩ => ⟨S8x32000, .f32⟩
  | .local _ .vmem, ⟨3, _⟩ => ⟨S8x32000, .f32⟩
  | .local _ .vmem, ⟨4, _⟩ => ⟨S8x32000, .f32⟩
  | .local _ .vmem, ⟨5, _⟩ => ⟨S8x32000, .f32⟩
  | .local _ .vmem, ⟨6, _⟩ => ⟨S8x32000, .f32⟩
  | .local _ .vmem, ⟨7, _⟩ => ⟨S8x32000, .f32⟩
  | .local _ .vmem, ⟨8, _⟩ => ⟨S8x32000, .f32⟩
  | .local _ .vmem, ⟨9, _⟩ => ⟨S8x32000, .f32⟩
  | .local _ .vmem, ⟨10, _⟩ => ⟨S8x32000, .f32⟩
  | .local _ .vmem, ⟨11, _⟩ => ⟨S8x32000, .f32⟩
  | .local _ .vmem, ⟨12, _⟩ => ⟨S8x32000, .f32⟩
  | .local _ .vmem, ⟨13, _⟩ => ⟨S8x32000, .f32⟩
  | .local _ .vmem, ⟨14, _⟩ => ⟨S8x32000, .f32⟩
  | .local _ .vmem, ⟨15, _⟩ => ⟨S8x32000, .f32⟩
  | _, _ => ⟨S8x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17_0 : Ref sig .tc := ⟨.hbm, 68, rfl⟩
abbrev main_v17_1 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_cst : Ref sig .tc := ⟨.hbm, 73, rfl⟩
abbrev main_v21 : Ref sig .tc := ⟨.hbm, 74, rfl⟩
abbrev main_c : Ref sig .tc := ⟨.hbm, 75, rfl⟩
abbrev main_v22 : Ref sig .tc := ⟨.hbm, 76, rfl⟩
abbrev main_v23 : Ref sig .tc := ⟨.hbm, 77, rfl⟩
abbrev main_c_0 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_cst_1 : Ref sig .tc := ⟨.hbm, 93, rfl⟩
abbrev main_v38 : Ref sig .tc := ⟨.hbm, 94, rfl⟩
abbrev main_cst_2 : Ref sig .tc := ⟨.hbm, 95, rfl⟩
abbrev main_v39 : Ref sig .tc := ⟨.hbm, 96, rfl⟩
abbrev main_cst_3 : Ref sig .tc := ⟨.hbm, 97, rfl⟩
abbrev main_v40 : Ref sig .tc := ⟨.hbm, 98, rfl⟩
abbrev main_cst_4 : Ref sig .tc := ⟨.hbm, 99, rfl⟩
abbrev main_v41 : Ref sig .tc := ⟨.hbm, 100, rfl⟩
abbrev main_v42 : Ref sig .tc := ⟨.hbm, 101, rfl⟩
abbrev main_call2_cst : Ref sig .tc := ⟨.hbm, 102, rfl⟩
abbrev main_call2_v0 : Ref sig .tc := ⟨.hbm, 103, rfl⟩
abbrev main_v43 : Ref sig .tc := ⟨.hbm, 104, rfl⟩
abbrev main_cst_5 : Ref sig .tc := ⟨.hbm, 105, rfl⟩
abbrev main_v44 : Ref sig .tc := ⟨.hbm, 106, rfl⟩
abbrev main_v45 : Ref sig .tc := ⟨.hbm, 107, rfl⟩
abbrev main_call3_cst : Ref sig .tc := ⟨.hbm, 108, rfl⟩
abbrev main_call3_v0 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_cst_6 : Ref sig .tc := ⟨.hbm, 114, rfl⟩
abbrev main_v50 : Ref sig .tc := ⟨.hbm, 115, rfl⟩
abbrev main_cst_7 : Ref sig .tc := ⟨.hbm, 116, rfl⟩
abbrev main_v51 : Ref sig .tc := ⟨.hbm, 117, rfl⟩
abbrev main_cst_8 : Ref sig .tc := ⟨.hbm, 118, rfl⟩
abbrev main_v52 : Ref sig .tc := ⟨.hbm, 119, rfl⟩
abbrev main_cst_9 : Ref sig .tc := ⟨.hbm, 120, rfl⟩
abbrev main_v53 : Ref sig .tc := ⟨.hbm, 121, rfl⟩
abbrev main_v54 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x32000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x32000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x32000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S8x50000_S1x8x50000_1_2 : S8x50000.BroadcastsInDim S1x8x50000 (![1, 2] : Fin 2 → Fin S1x8x50000.rank)
  concatenates_S1x8x50000_S1x8x50000_S2x8x50000_d0 : Shape.Concatenates [S1x8x50000, S1x8x50000] S2x8x50000 0
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S2x8x800000_2 : S800000.BroadcastsInDim S2x8x800000 (![2] : Fin 1 → Fin S2x8x800000.rank)
  bcast_S_S2x8x800000 : S_.BroadcastsInDim S2x8x800000 (![] : Fin 0 → Fin S2x8x800000.rank)
  slices_S2x8x800000_S1x8x800000_0_0_0 : S2x8x800000.Slices ![0, 0, 0] S1x8x800000
  shapeCasts_S1x8x800000_S8x800000 : S1x8x800000.ShapeCasts S8x800000
  slices_S2x8x800000_S1x8x800000_1_0_0 : S2x8x800000.Slices ![1, 0, 0] S1x8x800000
  inb_S8x32000_S8x32000_0_0 : ∀ a, (![0, 0] : Fin 2 → Nat) a + S8x32000.size a ≤ S8x32000.size a
  h_S8x32000 : 0 < S8x32000.numel
  shapeCasts_S8x32000_S8x32000 : S8x32000.ShapeCasts S8x32000
  bcast_S8x800000_S1x8x800000_1_2 : S8x800000.BroadcastsInDim S1x8x800000 (![1, 2] : Fin 2 → Fin S1x8x800000.rank)
  concatenates_S1x8x800000_S1x8x800000_S2x8x800000_d0 : Shape.Concatenates [S1x8x800000, S1x8x800000] S2x8x800000 0
  bcast_S_S2x8x50000 : S_.BroadcastsInDim S2x8x50000 (![] : Fin 0 → Fin S2x8x50000.rank)
  slices_S2x8x50000_S1x8x50000_0_0_0 : S2x8x50000.Slices ![0, 0, 0] S1x8x50000
  shapeCasts_S1x8x50000_S8x50000 : S1x8x50000.ShapeCasts S8x50000
  slices_S2x8x50000_S1x8x50000_1_0_0 : S2x8x50000.Slices ![1, 0, 0] S1x8x50000
  reducesTo_S8x50000_S8_d1 : S8x50000.ReducesTo [1] S8
  reducesTo_S8_S_d0 : S8.ReducesTo [0] S_
  bcast_S_S8x50000 : S_.BroadcastsInDim S8x50000 (![] : Fin 0 → Fin S8x50000.rank)
  gather_S2x8x50000_S800000x1_S2x8x800000_01_2_n_n_2_1_281_wf : GatherDims.WF S2x8x50000 S800000x1 S2x8x800000 [0, 1] [2] [] [2] [] 1 ![2, 8, 1]
  scatter_S2x8x50000_S800000x1_S2x8x800000_01_2_2_1_wf : ScatterDims.WF S2x8x50000 S800000x1 S2x8x800000 [0, 1] [2] [2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32000.size a ≤ S8x800000.size a
  hwx0_0 : ∀ i : grid0.Coords, EltTy.bits .f32 = 32 ∨ (Rect.block (s := S8x800000) S8x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32000.size a ≤ S8x800000.size a
  hwx0_1 : ∀ i : grid0.Coords, EltTy.bits .f32 = 32 ∨ (Rect.block (s := S8x800000) S8x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32000.size a ≤ S8x800000.size a
  hwx0_2 : ∀ i : grid0.Coords, EltTy.bits .f32 = 32 ∨ (Rect.block (s := S8x800000) S8x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32000.size a ≤ S8x800000.size a
  hwx0_3 : ∀ i : grid0.Coords, EltTy.bits .f32 = 32 ∨ (Rect.block (s := S8x800000) S8x32000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x32000.size a ≤ S8x800000.size a
  hwx0_4 : ∀ i : grid0.Coords, EltTy.bits .f32 = 32 ∨ (Rect.block (s := S8x800000) S8x32000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x32000.size a ≤ S8x800000.size a
  hwx0_5 : ∀ i : grid0.Coords, EltTy.bits .f32 = 32 ∨ (Rect.block (s := S8x800000) S8x32000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x32000.size a ≤ S8x800000.size a
  hwx0_6 : ∀ i : grid0.Coords, EltTy.bits .f32 = 32 ∨ (Rect.block (s := S8x800000) S8x32000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x32000.size a ≤ S8x800000.size a
  hwx0_7 : ∀ i : grid0.Coords, EltTy.bits .f32 = 32 ∨ (Rect.block (s := S8x800000) S8x32000.size (cc0_transform_7 i) (hinb0_7 i)).WholeWords (EltTy.packing .f32)

variable [Facts₀]

def gather_S2x8x50000_S800000x1_S2x8x800000_01_2_n_n_2_1_281 : GatherDims S2x8x50000 S800000x1 S2x8x800000 where
  offsetDims := [0, 1]
  collapsedSliceDims := [2]
  operandBatchingDims := []
  startIndicesBatchingDims := []
  startIndexMap := [2]
  indexVectorDim := 1
  sliceSizes := ![2, 8, 1]
  wf := gather_S2x8x50000_S800000x1_S2x8x800000_01_2_n_n_2_1_281_wf
def scatter_S2x8x50000_S800000x1_S2x8x800000_01_2_2_1 : ScatterDims S2x8x50000 S800000x1 S2x8x800000 where
  updateWindowDims := [0, 1]
  insertedWindowDims := [2]
  scatterDimsToOperandDims := [2]
  indexVectorDim := 1
  wf := scatter_S2x8x50000_S800000x1_S2x8x800000_01_2_2_1_wf

abbrev win0_0 : Pipeline.Window sig grid0 :=
  Pipeline.Window.ofSpec (Memref.whole main_v10) S8x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8x32000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8x32000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S8x32000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_0) S8x32000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_1) S8x32000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x50000 : Shape := ⟨2, ![8, 50000]⟩
abbrev S8x800000 : Shape := ⟨2, ![8, 800000]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S8 : Shape := ⟨1, ![8]⟩

abbrev nBuf : Space → Nat
  | .hbm => 122
  | .vmem => 0
  | .smem => 0
  | _ => 0

abbrev bufTy : (tb : Table) → Fin (tcTables nBuf tb) → BufTy
  | .hbm, ⟨0, _⟩ => ⟨S8x50000, .f32⟩
  | .hbm, ⟨1, _⟩ => ⟨S8x50000, .f32⟩
  | .hbm, ⟨2, _⟩ => ⟨S8x800000, .f32⟩
  | .hbm, ⟨3, _⟩ => ⟨S8x800000, .f32⟩
  | .hbm, ⟨4, _⟩ => ⟨S8x50000, .f32⟩
  | .hbm, ⟨5, _⟩ => ⟨S8x50000, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S8x800000, .f32⟩
  | .hbm, ⟨12, _⟩ => ⟨S8x800000, .f32⟩
  | .hbm, ⟨13, _⟩ => ⟨S8x800000, .f32⟩
  | .hbm, ⟨14, _⟩ => ⟨S8x800000, .f32⟩
  | .hbm, ⟨15, _⟩ => ⟨S8x800000, .f32⟩
  | .hbm, ⟨16, _⟩ => ⟨S8x800000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S8x800000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S8x800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S8x800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S8x800000, .f32⟩
  | .hbm, ⟨53, _⟩ => ⟨S8x800000, .f32⟩
  | .hbm, ⟨54, _⟩ => ⟨S8x800000, .f32⟩
  | .hbm, ⟨55, _⟩ => ⟨S8x800000, .f32⟩
  | .hbm, ⟨56, _⟩ => ⟨S8x800000, .f32⟩
  | .hbm, ⟨57, _⟩ => ⟨S8x800000, .f32⟩
  | .hbm, ⟨58, _⟩ => ⟨S8x800000, .f32⟩
  | .hbm, ⟨59, _⟩ => ⟨S8x800000, .f32⟩
  | .hbm, ⟨60, _⟩ => ⟨S8x800000, .f32⟩
  | .hbm, ⟨61, _⟩ => ⟨S8x800000, .f32⟩
  | .hbm, ⟨62, _⟩ => ⟨S8x800000, .f32⟩
  | .hbm, ⟨63, _⟩ => ⟨S8x800000, .f32⟩
  | .hbm, ⟨64, _⟩ => ⟨S8x800000, .f32⟩
  | .hbm, ⟨65, _⟩ => ⟨S_, .f32⟩
  | .hbm, ⟨66, _⟩ => ⟨S8x50000, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S8x50000, .f32⟩
  | .hbm, ⟨76, _⟩ => ⟨S_, .f32⟩
  | .hbm, ⟨77, _⟩ => ⟨S8x50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S8x50000, .f32⟩
  | .hbm, ⟨87, _⟩ => ⟨S8x50000, .f32⟩
  | .hbm, ⟨88, _⟩ => ⟨S8x50000, .f32⟩
  | .hbm, ⟨89, _⟩ => ⟨S8x50000, .f32⟩
  | .hbm, ⟨90, _⟩ => ⟨S8x50000, .f32⟩
  | .hbm, ⟨91, _⟩ => ⟨S8x50000, .f32⟩
  | .hbm, ⟨92, _⟩ => ⟨S_, .f32⟩
  | .hbm, ⟨93, _⟩ => ⟨S8, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S8x50000, .f32⟩
  | .hbm, ⟨100, _⟩ => ⟨S8x50000, .f32⟩
  | .hbm, ⟨101, _⟩ => ⟨S_, .f32⟩
  | .hbm, ⟨102, _⟩ => ⟨S8x50000, .f32⟩
  | .hbm, ⟨103, _⟩ => ⟨S8x50000, .f32⟩
  | .hbm, ⟨104, _⟩ => ⟨S_, .f32⟩
  | .hbm, ⟨105, _⟩ => ⟨S8x50000, .f32⟩
  | .hbm, ⟨106, _⟩ => ⟨S8x50000, .f32⟩
  | .hbm, ⟨107, _⟩ => ⟨S_, .f32⟩
  | .hbm, ⟨108, _⟩ => ⟨S8x50000, .f32⟩
  | .hbm, ⟨109, _⟩ => ⟨S8x50000, .f32⟩
  | .hbm, ⟨110, _⟩ => ⟨S8x50000, .f32⟩
  | .hbm, ⟨111, _⟩ => ⟨S8x50000, .f32⟩
  | .hbm, ⟨112, _⟩ => ⟨S8x50000, .f32⟩
  | .hbm, ⟨113, _⟩ => ⟨S_, .f32⟩
  | .hbm, ⟨114, _⟩ => ⟨S8, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S8x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst : Ref sig .tc := ⟨.hbm, 65, rfl⟩
abbrev main_v50 : Ref sig .tc := ⟨.hbm, 66, rfl⟩
abbrev main_c_7 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_call0_cst : Ref sig .tc := ⟨.hbm, 101, rfl⟩
abbrev main_call0_v0 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_cst_20 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S8x50000 : S_.BroadcastsInDim S8x50000 (![] : Fin 0 → Fin S8x50000.rank)
  reducesTo_S8x50000_S8_d1 : S8x50000.ReducesTo [1] S8
  h_S_ : 0 < S_.numel
  reducesTo_S8_S_d0 : S8.ReducesTo [0] S_
  gather_S8x50000_S800000x1_S8x800000_0_1_n_n_1_1_81_wf : GatherDims.WF S8x50000 S800000x1 S8x800000 [0] [1] [] [1] [] 1 ![8, 1]
  scatter_S8x50000_S800000x1_S8x800000_0_1_1_1_wf : ScatterDims.WF S8x50000 S800000x1 S8x800000 [0] [1] [1] 1

variable [Facts₀]

def gather_S8x50000_S800000x1_S8x800000_0_1_n_n_1_1_81 : GatherDims S8x50000 S800000x1 S8x800000 where
  offsetDims := [0]
  collapsedSliceDims := [1]
  operandBatchingDims := []
  startIndicesBatchingDims := []
  startIndexMap := [1]
  indexVectorDim := 1
  sliceSizes := ![8, 1]
  wf := gather_S8x50000_S800000x1_S8x800000_0_1_n_n_1_1_81_wf
def scatter_S8x50000_S800000x1_S8x800000_0_1_1_1 : ScatterDims S8x50000 S800000x1 S8x800000 where
  updateWindowDims := [0]
  insertedWindowDims := [1]
  scatterDimsToOperandDims := [1]
  indexVectorDim := 1
  wf := scatter_S8x50000_S800000x1_S8x800000_0_1_1_1_wf

class Facts : Prop extends Facts₀ where

variable [Facts]
-- ==== Proof.Region.lean ====
/- What the kernel's one region leaves in its two output arrays, as ONE function of its six input arrays, entry by entry.

   The region walks 25 blocks of 32000 edges; at each it loads the blocks of the six inputs (the two ends' magnitudes,
   the two ends' angles, resistance, reactance) and stores, entry by entry, the active flow into one output block and
   the reactive flow into the other. Every window sits at the same block (0, t) at point t, so entry (b, e) of an
   output depends on entry (b, e) of each input and on nothing else, and the 25 blocks tile the 800000 edges: each
   output array ends as the flow function applied entry by entry to the whole input arrays. Stated at any float
   family; `sP`, `sQ` are the body's own operations on one entry (its susceptance is negated as `0 − x`). -/
import proofs.«411077_j9019431321744_2_alg».proof.Proof.KernelIdealFrame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.KernelIdeal.GenP

variable {F : FTy → Type} [FloatOps F]

/-- The body's line conductance r / (r² + x²) on one entry. -/
def sG (r x : F .f32) : F .f32 := FloatOps.divf r (FloatOps.addf (FloatOps.mulf r r) (FloatOps.mulf x x))
/-- The body's line susceptance (0 − x) / (r² + x²) on one entry. -/
def sB (r x : F .f32) : F .f32 :=
  FloatOps.divf (FloatOps.subf (FloatOps.ofBits .f32 0x00000000#32) x) (FloatOps.addf (FloatOps.mulf r r) (FloatOps.mulf x x))
/-- The body's active flow on one entry: vᵢ vⱼ (g cos θ + b sin θ), θ = aᵢ − aⱼ. -/
def sP (vi vj ai aj r x : F .f32) : F .f32 :=
  FloatOps.mulf (FloatOps.mulf vi vj)
    (FloatOps.addf (FloatOps.mulf (sG r x) (FloatOps.cos (FloatOps.subf ai aj))) (FloatOps.mulf (sB r x) (FloatOps.sin (FloatOps.subf ai aj))))
/-- The body's reactive flow on one entry: vᵢ vⱼ (g sin θ − b cos θ). -/
def sQ (vi vj ai aj r x : F .f32) : F .f32 :=
  FloatOps.mulf (FloatOps.mulf vi vj)
    (FloatOps.subf (FloatOps.mulf (sG r x) (FloatOps.sin (FloatOps.subf ai aj))) (FloatOps.mulf (sB r x) (FloatOps.cos (FloatOps.subf ai aj))))

theorem zero_offsets : (![0, 0] : Fin 2 → Nat) = fun _ => 0 := funext fun a => by fin_cases a <;> rfl

/-- The first stored value is the active flow of the loaded blocks, entry by entry (a reshape to the same shape is the identity). -/
theorem k0_pay8_eq (x0 x1 x2 x3 x4 x5 : Vec F S8x32000 .f32) :
    k0_pay8 x0 x1 x2 x3 x4 x5 = fun j => sP (x0 j) (x1 j) (x2 j) (x3 j) (x4 j) (x5 j) := by
  funext j
  simp only [k0_pay8, k0_pay7, k0_pay6, k0_pay5, k0_pay4, k0_pay3, k0_pay2, k0_pay1, shapeCast_self]
  rfl

/-- The second stored value is the reactive flow of the loaded blocks. -/
theorem k0_pay9_eq (x0 x1 x2 x3 x4 x5 : Vec F S8x32000 .f32) :
    k0_pay9 x0 x1 x2 x3 x4 x5 = fun j => sQ (x0 j) (x1 j) (x2 j) (x3 j) (x4 j) (x5 j) := by
  funext j
  simp only [k0_pay9, k0_pay7, k0_pay6, k0_pay5, k0_pay4, k0_pay3, k0_pay2, k0_pay1, shapeCast_self]
  rfl

/-- Every window's block at grid point `t` is block (0, t) of its array (decided once over the 25 points). -/
theorem block_index : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = t.val) :=
  (by decide +kernel : ∀ t : Fin grid0.N, _)

/-- Block `t` of an output, computed entry by entry from block `t` of each of six arrays, is block `t` of the array
    computed entry by entry from the six arrays: all the windows sit at block (0, t). Stated over any six arrays. -/
theorem block_of_blocks6 (A0 A1 A2 A3 A4 A5 : S8x800000.Idx → F .f32) (t : Fin cfg0.N) :
    ((win0 6).cut (grid0.coords t) fun j =>
        sP (((cfg0.win 0).blk t).view.read (Elt F) A0 j) (((cfg0.win 1).blk t).view.read (Elt F) A1 j)
          (((cfg0.win 2).blk t).view.read (Elt F) A2 j) (((cfg0.win 3).blk t).view.read (Elt F) A3 j)
          (((cfg0.win 4).blk t).view.read (Elt F) A4 j) (((cfg0.win 5).blk t).view.read (Elt F) A5 j))
      = ((cfg0.win 6).blk t).view.read (Elt F) (fun i => sP (A0 i) (A1 i) (A2 i) (A3 i) (A4 i) (A5 i)) := by
  obtain ⟨⟨a0, b0⟩, ⟨a1, b1⟩, ⟨a2, b2⟩, ⟨a3, b3⟩, ⟨a4, b4⟩, ⟨a5, b5⟩, ⟨a6, b6⟩, ⟨a7, b7⟩⟩ := block_index t
  funext j
  show sP (A0 (((cfg0.win 0).blk t).view.emb j)) (A1 (((cfg0.win 1).blk t).view.emb j)) (A2 (((cfg0.win 2).blk t).view.emb j))
        (A3 (((cfg0.win 3).blk t).view.emb j)) (A4 (((cfg0.win 4).blk t).view.emb j)) (A5 (((cfg0.win 5).blk t).view.emb j))
     = sP (A0 (((cfg0.win 6).blk t).view.emb j)) (A1 (((cfg0.win 6).blk t).view.emb j)) (A2 (((cfg0.win 6).blk t).view.emb j))
        (A3 (((cfg0.win 6).blk t).view.emb j)) (A4 (((cfg0.win 6).blk t).view.emb j)) (A5 (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 8 + 1 * (j 0).val = win0_6.index t (0 : Fin 2) * 8 + 1 * (j 0).val; omega
    | ⟨1, _⟩ => show win0_0.index t (1 : Fin 2) * 32000 + 1 * (j 1).val = win0_6.index t (1 : Fin 2) * 32000 + 1 * (j 1).val; omega
  have h1 : ((cfg0.win 1).blk t).view.emb j = ((cfg0.win 6).blk t).view.emb j := by
    funext a; apply Fin.ext
    match a with
    | ⟨0, _⟩ => show win0_1.index t (0 : Fin 2) * 8 + 1 * (j 0).val = win0_6.index t (0 : Fin 2) * 8 + 1 * (j 0).val; omega
    | ⟨1, _⟩ => show win0_1.index t (1 : Fin 2) * 32000 + 1 * (j 1).val = win0_6.index t (1 : Fin 2) * 32000 + 1 * (j 1).val; omega
  have h2 : ((cfg0.win 2).blk t).view.emb j = ((cfg0.win 6).blk t).view.emb j := by
    funext a; apply Fin.ext
    match a with
    | ⟨0, _⟩ => show win0_2.index t (0 : Fin 2) * 8 + 1 * (j 0).val = win0_6.index t (0 : Fin 2) * 8 + 1 * (j 0).val; omega
    | ⟨1, _⟩ => show win0_2.index t (1 : Fin 2) * 32000 + 1 * (j 1).val = win0_6.index t (1 : Fin 2) * 32000 + 1 * (j 1).val; omega
  have h3 : ((cfg0.win 3).blk t).view.emb j = ((cfg0.win 6).blk t).view.emb j := by
    funext a; apply Fin.ext
    match a with
    | ⟨0, _⟩ => show win0_3.index t (0 : Fin 2) * 8 + 1 * (j 0).val = win0_6.index t (0 : Fin 2) * 8 + 1 * (j 0).val; omega
    | ⟨1, _⟩ => show win0_3.index t (1 : Fin 2) * 32000 + 1 * (j 1).val = win0_6.index t (1 : Fin 2) * 32000 + 1 * (j 1).val; omega
  have h4 : ((cfg0.win 4).blk t).view.emb j = ((cfg0.win 6).blk t).view.emb j := by
    funext a; apply Fin.ext
    match a with
    | ⟨0, _⟩ => show win0_4.index t (0 : Fin 2) * 8 + 1 * (j 0).val = win0_6.index t (0 : Fin 2) * 8 + 1 * (j 0).val; omega
    | ⟨1, _⟩ => show win0_4.index t (1 : Fin 2) * 32000 + 1 * (j 1).val = win0_6.index t (1 : Fin 2) * 32000 + 1 * (j 1).val; omega
  have h5 : ((cfg0.win 5).blk t).view.emb j = ((cfg0.win 6).blk t).view.emb j := by
    funext a; apply Fin.ext
    match a with
    | ⟨0, _⟩ => show win0_5.index t (0 : Fin 2) * 8 + 1 * (j 0).val = win0_6.index t (0 : Fin 2) * 8 + 1 * (j 0).val; omega
    | ⟨1, _⟩ => show win0_5.index t (1 : Fin 2) * 32000 + 1 * (j 1).val = win0_6.index t (1 : Fin 2) * 32000 + 1 * (j 1).val; omega
  rw [h0, h1, h2, h3, h4, h5]

/-- Block `t` of an output, computed entry by entry from block `t` of each of six arrays, is block `t` of the array
    computed entry by entry from the six arrays: all the windows sit at block (0, t). Stated over any six arrays. -/
theorem block_of_blocks7 (A0 A1 A2 A3 A4 A5 : S8x800000.Idx → F .f32) (t : Fin cfg0.N) :
    ((win0 7).cut (grid0.coords t) fun j =>
        sQ (((cfg0.win 0).blk t).view.read (Elt F) A0 j) (((cfg0.win 1).blk t).view.read (Elt F) A1 j)
          (((cfg0.win 2).blk t).view.read (Elt F) A2 j) (((cfg0.win 3).blk t).view.read (Elt F) A3 j)
          (((cfg0.win 4).blk t).view.read (Elt F) A4 j) (((cfg0.win 5).blk t).view.read (Elt F) A5 j))
      = ((cfg0.win 7).blk t).view.read (Elt F) (fun i => sQ (A0 i) (A1 i) (A2 i) (A3 i) (A4 i) (A5 i)) := by
  obtain ⟨⟨a0, b0⟩, ⟨a1, b1⟩, ⟨a2, b2⟩, ⟨a3, b3⟩, ⟨a4, b4⟩, ⟨a5, b5⟩, ⟨a6, b6⟩, ⟨a7, b7⟩⟩ := block_index t
  funext j
  show sQ (A0 (((cfg0.win 0).blk t).view.emb j)) (A1 (((cfg0.win 1).blk t).view.emb j)) (A2 (((cfg0.win 2).blk t).view.emb j))
        (A3 (((cfg0.win 3).blk t).view.emb j)) (A4 (((cfg0.win 4).blk t).view.emb j)) (A5 (((cfg0.win 5).blk t).view.emb j))
     = sQ (A0 (((cfg0.win 7).blk t).view.emb j)) (A1 (((cfg0.win 7).blk t).view.emb j)) (A2 (((cfg0.win 7).blk t).view.emb j))
        (A3 (((cfg0.win 7).blk t).view.emb j)) (A4 (((cfg0.win 7).blk t).view.emb j)) (A5 (((cfg0.win 7).blk t).view.emb j))
  have h0 : ((cfg0.win 0).blk t).view.emb j = ((cfg0.win 7).blk t).view.emb j := by
    funext a; apply Fin.ext
    match a with
    | ⟨0, _⟩ => show win0_0.index t (0 : Fin 2) * 8 + 1 * (j 0).val = win0_7.index t (0 : Fin 2) * 8 + 1 * (j 0).val; omega
    | ⟨1, _⟩ => show win0_0.index t (1 : Fin 2) * 32000 + 1 * (j 1).val = win0_7.index t (1 : Fin 2) * 32000 + 1 * (j 1).val; omega
  have h1 : ((cfg0.win 1).blk t).view.emb j = ((cfg0.win 7).blk t).view.emb j := by
    funext a; apply Fin.ext
    match a with
    | ⟨0, _⟩ => show win0_1.index t (0 : Fin 2) * 8 + 1 * (j 0).val = win0_7.index t (0 : Fin 2) * 8 + 1 * (j 0).val; omega
    | ⟨1, _⟩ => show win0_1.index t (1 : Fin 2) * 32000 + 1 * (j 1).val = win0_7.index t (1 : Fin 2) * 32000 + 1 * (j 1).val; omega
  have h2 : ((cfg0.win 2).blk t).view.emb j = ((cfg0.win 7).blk t).view.emb j := by
    funext a; apply Fin.ext
    match a with
    | ⟨0, _⟩ => show win0_2.index t (0 : Fin 2) * 8 + 1 * (j 0).val = win0_7.index t (0 : Fin 2) * 8 + 1 * (j 0).val; omega
    | ⟨1, _⟩ => show win0_2.index t (1 : Fin 2) * 32000 + 1 * (j 1).val = win0_7.index t (1 : Fin 2) * 32000 + 1 * (j 1).val; omega
  have h3 : ((cfg0.win 3).blk t).view.emb j = ((cfg0.win 7).blk t).view.emb j := by
    funext a; apply Fin.ext
    match a with
    | ⟨0, _⟩ => show win0_3.index t (0 : Fin 2) * 8 + 1 * (j 0).val = win0_7.index t (0 : Fin 2) * 8 + 1 * (j 0).val; omega
    | ⟨1, _⟩ => show win0_3.index t (1 : Fin 2) * 32000 + 1 * (j 1).val = win0_7.index t (1 : Fin 2) * 32000 + 1 * (j 1).val; omega
  have h4 : ((cfg0.win 4).blk t).view.emb j = ((cfg0.win 7).blk t).view.emb j := by
    funext a; apply Fin.ext
    match a with
    | ⟨0, _⟩ => show win0_4.index t (0 : Fin 2) * 8 + 1 * (j 0).val = win0_7.index t (0 : Fin 2) * 8 + 1 * (j 0).val; omega
    | ⟨1, _⟩ => show win0_4.index t (1 : Fin 2) * 32000 + 1 * (j 1).val = win0_7.index t (1 : Fin 2) * 32000 + 1 * (j 1).val; omega
  have h5 : ((cfg0.win 5).blk t).view.emb j = ((cfg0.win 7).blk t).view.emb j := by
    funext a; apply Fin.ext
    match a with
    | ⟨0, _⟩ => show win0_5.index t (0 : Fin 2) * 8 + 1 * (j 0).val = win0_7.index t (0 : Fin 2) * 8 + 1 * (j 0).val; omega
    | ⟨1, _⟩ => show win0_5.index t (1 : Fin 2) * 32000 + 1 * (j 1).val = win0_7.index t (1 : Fin 2) * 32000 + 1 * (j 1).val; omega
  rw [h0, h1, h2, h3, h4, h5]

variable (m : (ℓ : Loc nD τ sig) → Buf (Elt F) ℓ) (ρ : Dev nD → PrngReg)

/-- The active flows of all edges: the body's flow of the six input arrays as the region finds them, entry by entry. -/
abbrev arrP (c : Dev nD) : S8x800000.Idx → Elt F .f32 := fun i =>
  sP (V m c main_v10 i) (V m c main_v14 i) (V m c main_v12 i)
    (V m c main_v16 i) (V m c main_arg2 i) (V m c main_arg3 i)

/-- The reactive flows of all edges. -/
abbrev arrQ (c : Dev nD) : S8x800000.Idx → Elt F .f32 := fun i =>
  sQ (V m c main_v10 i) (V m c main_v14 i) (V m c main_v12 i)
    (V m c main_v16 i) (V m c main_arg2 i) (V m c main_arg3 i)

/-- What grid point `t` writes back to the active-flow array is block `t` of `arrP` of the six input arrays as the region finds
    them: all eight windows sit at block (0, t), so an entry of the output block reads each input at its own index. -/
theorem flushed6_eq (c : Dev nD) (t : Fin cfg0.N) :
    (dats m 0 c).flushed 6 t = ((cfg0.win 6).blk t).view.read (Elt F) (arrP m c) := by
  show (cfg0.win 6).cut (grid0.coords t) ((dats m 0 c).after 6 t) = _
  rw [after0_6]
  unfold out0_6
  rw [View.canon_unit_zero zero_offsets]
  simp only [View.ld_unit_zero (S := S8x32000) zero_offsets]
  rw [k0_pay8_eq]
  exact block_of_blocks6 (V m c main_v10) (V m c main_v14) (V m c main_v12) (V m c main_v16) (V m c main_arg2) (V m c main_arg3) t

/-- An index of the active-flow array lies in point `t`'s block iff each coordinate is in the block's range. -/
theorem mem_blk6 (t : Fin cfg0.N) (i : S8x800000.Idx) :
    i ∈ ((cfg0.win 6).blk t).view.set ↔ ∀ a : Fin 2, win0_6.index t a * S8x32000.size a ≤ (i a).val ∧ (i a).val < win0_6.index t a * S8x32000.size a + S8x32000.size a := by
  show i ∈ ((View.whole main_v17_0).slice (win0_6.rect t)).set ↔ _
  rw [View.set_slice_whole, Rect.mem_set_unit]
  exact Iff.rfl

/-- The 25 blocks of 32000 columns tile the active-flow array: column `e` is in block `e / 32000`. So the array ends at `arrP`. -/
theorem final6 (c : Dev nD) : (dats m 0 c).arrAt 6 cfg0.N = arrP m c :=
  (dats m 0 c).arrAt_eq_of_cover 6 (arrP m c) (fun t _ => flushed6_eq m c t) fun i => by
    have hi0 : (i 0).val < 8 := (i 0).isLt
    have hi1 : (i 1).val < 800000 := (i 1).isLt
    refine ⟨⟨(i 1).val / 32000, by rw [show cfg0.N = 25 from N_0]; omega⟩, flush0_6 _, ?_⟩
    rw [mem_blk6]
    obtain ⟨-, -, -, -, -, -, ⟨a6, b6⟩, ⟨a7, b7⟩⟩ := block_index ⟨(i 1).val / 32000, by rw [show cfg0.N = 25 from N_0]; omega⟩
    intro a
    match a with
    | ⟨0, _⟩ => show win0_6.index _ (0 : Fin 2) * 8 ≤ (i 0).val ∧ (i 0).val < win0_6.index _ (0 : Fin 2) * 8 + 8; rw [a6]; omega
    | ⟨1, _⟩ => show win0_6.index _ (1 : Fin 2) * 32000 ≤ (i 1).val ∧ (i 1).val < win0_6.index _ (1 : Fin 2) * 32000 + 32000; rw [b6]; show (i 1).val / 32000 * 32000 ≤ (i 1).val ∧ (i 1).val < (i 1).val / 32000 * 32000 + 32000; omega

/-- What grid point `t` writes back to the reactive-flow array is block `t` of `arrQ` of the six input arrays as the region finds
    them: all eight windows sit at block (0, t), so an entry of the output block reads each input at its own index. -/
theorem flushed7_eq (c : Dev nD) (t : Fin cfg0.N) :
    (dats m 0 c).flushed 7 t = ((cfg0.win 7).blk t).view.read (Elt F) (arrQ m c) := by
  show (cfg0.win 7).cut (grid0.coords t) ((dats m 0 c).after 7 t) = _
  rw [after0_7]
  unfold out0_7
  rw [View.canon_unit_zero zero_offsets]
  simp only [View.ld_unit_zero (S := S8x32000) zero_offsets]
  rw [k0_pay9_eq]
  exact block_of_blocks7 (V m c main_v10) (V m c main_v14) (V m c main_v12) (V m c main_v16) (V m c main_arg2) (V m c main_arg3) t

/-- An index of the reactive-flow array lies in point `t`'s block iff each coordinate is in the block's range. -/
theorem mem_blk7 (t : Fin cfg0.N) (i : S8x800000.Idx) :
    i ∈ ((cfg0.win 7).blk t).view.set ↔ ∀ a : Fin 2, win0_7.index t a * S8x32000.size a ≤ (i a).val ∧ (i a).val < win0_7.index t a * S8x32000.size a + S8x32000.size a := by
  show i ∈ ((View.whole main_v17_1).slice (win0_7.rect t)).set ↔ _
  rw [View.set_slice_whole, Rect.mem_set_unit]
  exact Iff.rfl

/-- The 25 blocks of 32000 columns tile the reactive-flow array: column `e` is in block `e / 32000`. So the array ends at `arrQ`. -/
theorem final7 (c : Dev nD) : (dats m 0 c).arrAt 7 cfg0.N = arrQ m c :=
  (dats m 0 c).arrAt_eq_of_cover 7 (arrQ m c) (fun t _ => flushed7_eq m c t) fun i => by
    have hi0 : (i 0).val < 8 := (i 0).isLt
    have hi1 : (i 1).val < 800000 := (i 1).isLt
    refine ⟨⟨(i 1).val / 32000, by rw [show cfg0.N = 25 from N_0]; omega⟩, flush0_7 _, ?_⟩
    rw [mem_blk7]
    obtain ⟨-, -, -, -, -, -, ⟨a6, b6⟩, ⟨a7, b7⟩⟩ := block_index ⟨(i 1).val / 32000, by rw [show cfg0.N = 25 from N_0]; omega⟩
    intro a
    match a with
    | ⟨0, _⟩ => show win0_7.index _ (0 : Fin 2) * 8 ≤ (i 0).val ∧ (i 0).val < win0_7.index _ (0 : Fin 2) * 8 + 8; rw [a7]; omega
    | ⟨1, _⟩ => show win0_7.index _ (1 : Fin 2) * 32000 ≤ (i 1).val ∧ (i 1).val < win0_7.index _ (1 : Fin 2) * 32000 + 32000; rw [b7]; show (i 1).val / 32000 * 32000 ≤ (i 1).val ∧ (i 1).val < (i 1).val / 32000 * 32000 + 32000; omega

end Cert.KernelIdeal.Region

end
-- ==== Proof.Flow.lean ====
/- The quantity both programs compute, written once as plain mathematics on the extended reals.

   A network has 50000 buses and 800000 directed edges, in 8 independent batches. Edge e goes from bus `src e` to bus
   `dst e`; a bus number is read as jnp reads an index: a negative one counts from the end (`wrap`), and a gather clamps
   what it is given into the table (`busCol`). With voltage magnitudes `vm`, angles `va`, line resistance `r` and
   reactance `x`, the conductance and susceptance of a line are g = r / (r² + x²) and b = −x / (r² + x²), and with
   θ the angle difference of the edge's two ends the active and reactive power sent along it are
     p = vᵢ vⱼ (g cos θ + b sin θ),   q = vᵢ vⱼ (g sin θ − b cos θ).
   Each bus accumulates the flows of the edges that leave it (`calcP`, `calcQ`): a sum over exactly the edges whose
   wrapped from-number IS that bus; an edge whose from-number names no bus is in no sum. -/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Flow

/-- A bus number as both programs read it: a negative one counts from the end of the 50000 buses. -/
def wrap (w : BitVec 32) : BitVec 32 := Scalar.select (IntOp.cmpi .slt w 0#32) (IntOp.addi w 50000#32) w

/-- The column of the bus tables a gather reads for a bus number: the wrapped number, signed, clamped into the table. -/
def busCol (w : BitVec 32) : Fin 50000 := ⟨min (wrap w).toInt.toNat 49999, by omega⟩

/-- Active power along an edge from its ends' magnitudes and angles and the line's resistance and reactance. -/
def flowP (vi vj ai aj r x : EReal) : EReal :=
  vi * vj * (Ideal.div r (r * r + x * x) * Ideal.cos (ai - aj) + Ideal.div (-x) (r * r + x * x) * Ideal.sin (ai - aj))

/-- Reactive power along an edge. -/
def flowQ (vi vj ai aj r x : EReal) : EReal :=
  vi * vj * (Ideal.div r (r * r + x * x) * Ideal.sin (ai - aj) - Ideal.div (-x) (r * r + x * x) * Ideal.cos (ai - aj))

/-- The same with the line's susceptance negated as `0 − x`: on the extended reals `0 − x = −x` always. -/
theorem flowP_zero_sub (vi vj ai aj r x : EReal) :
    vi * vj * (Ideal.div r (r * r + x * x) * Ideal.cos (ai - aj)
      + Ideal.div (Ideal.ofBits .f32 0x00000000#32 - x) (r * r + x * x) * Ideal.sin (ai - aj)) = flowP vi vj ai aj r x := by
  rw [Ideal.ofBits_zero_f32, zero_sub]; rfl

theorem flowQ_zero_sub (vi vj ai aj r x : EReal) :
    vi * vj * (Ideal.div r (r * r + x * x) * Ideal.sin (ai - aj)
      - Ideal.div (Ideal.ofBits .f32 0x00000000#32 - x) (r * r + x * x) * Ideal.cos (ai - aj)) = flowQ vi vj ai aj r x := by
  rw [Ideal.ofBits_zero_f32, zero_sub]; rfl

variable (vm va : (⟨2, ![8, 50000]⟩ : Shape).Idx → EReal) (r x : (⟨2, ![8, 800000]⟩ : Shape).Idx → EReal)
  (src dst : (⟨1, ![800000]⟩ : Shape).Idx → BitVec 32)

/-- Active power along edge `e` in batch `b`, both ends read through the clamped gather. -/
def edgeP (b : Fin 8) (e : Fin 800000) : EReal :=
  flowP (vm (ix2 b (busCol (src (ix1 e))))) (vm (ix2 b (busCol (dst (ix1 e)))))
    (va (ix2 b (busCol (src (ix1 e))))) (va (ix2 b (busCol (dst (ix1 e))))) (r (ix2 b e)) (x (ix2 b e))

/-- Reactive power along edge `e` in batch `b`. -/
def edgeQ (b : Fin 8) (e : Fin 800000) : EReal :=
  flowQ (vm (ix2 b (busCol (src (ix1 e))))) (vm (ix2 b (busCol (dst (ix1 e)))))
    (va (ix2 b (busCol (src (ix1 e))))) (va (ix2 b (busCol (dst (ix1 e))))) (r (ix2 b e)) (x (ix2 b e))

/-- What bus `n` accumulates in batch `b`: zero plus the active flows of the edges that leave it. -/
def calcP (b : Fin 8) (n : Fin 50000) : EReal :=
  Ideal.ofBits .f32 0x00000000#32
    + ∑ e ∈ Finset.univ.filter (fun e : Fin 800000 => (wrap (src (ix1 e))).toInt = (n.val : ℤ)), edgeP vm va r x src dst b e

/-- The same for the reactive flows. -/
def calcQ (b : Fin 8) (n : Fin 50000) : EReal :=
  Ideal.ofBits .f32 0x00000000#32
    + ∑ e ∈ Finset.univ.filter (fun e : Fin 800000 => (wrap (src (ix1 e))).toInt = (n.val : ℤ)), edgeQ vm va r x src dst b e

end Cert.Flow

end
-- ==== Proof.GatherRead.lean ====
/- The gathers of bus values along the edges, read at one edge: the operand's entry at the edge's start index, read as
   a signed number and clamped into the table. Stated for the two layouts the two programs use. And the conjunction of a
   one-column mask along its column, which is the column's one entry. -/
import Idealize.ShloMosaic.PureOps.Ideal
import Idealize.ShloMosaic.PureOps.Contract
import Idealize.ShloMosaic.Lib.ValueIdx
import Idealize.ShloMosaic.Lib.ReduceAll

noncomputable section

open Idealize.ShloMosaic Idealize.ShloMosaic.ValueIdx

namespace Cert.Flow

/-- Off the start index map the slice starts at 0. -/
theorem start_eq_zero_of_not_mem {s si t : Shape} (d : GatherDims s si t) {w : Nat} (j : t.Idx) (idx : IVec si w)
    (a : Fin s.rank) (ha : a ∉ d.startIndexMap) : d.start j idx a = 0 := by
  unfold GatherDims.start; rw [dif_neg ha]

/-- On a kept operand axis in position p whose offset axis is o, the offset coordinate is the result index's on o. -/
theorem offCoord_of {s si t : Shape} (d : GatherDims s si t) (j : t.Idx) (a : Fin s.rank) (p : Nat) (o : Fin t.rank)
    (hk : a ∈ d.sKept) (hp : d.sKept.idxOf a = p) (ho : d.offsetDims[p]? = some o) : d.offCoord j a = (j o).val := by
  unfold GatherDims.offCoord
  rw [dif_pos hk]
  subst hp
  obtain ⟨h, ho'⟩ := List.getElem?_eq_some_iff.1 ho
  exact congrArg (fun x => (j x).val) ho'

/-- When the result has one batch axis o, every start-indices coordinate is the result index's on o. -/
theorem siCoord_val_of {s si t : Shape} (d : GatherDims s si t) (j : t.Idx) (b : Fin si.rank) (hb : b ∈ d.siKept)
    (o : Fin t.rank) (ho : ∀ x ∈ d.batchDims, x = o) : (d.siCoord j b hb).val = (j o).val := by
  unfold GatherDims.siCoord
  simp only [Fin.val_cast]
  exact congrArg (fun x => (j x).val) (ho _ (List.getElem_mem _))

/-- One table: result entry (b, e) is the operand at row b, column the clamped start index of edge e. -/
theorem gather_cols2 {α : Type} (d : GatherDims ⟨2, ![8, 50000]⟩ ⟨2, ![800000, 1]⟩ ⟨2, ![8, 800000]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![8, 1])
    (x : (⟨2, ![8, 50000]⟩ : Shape).Idx → α) (idx : IVec ⟨2, ![800000, 1]⟩ 32) (b : Fin 8) (e : Fin 800000) :
    Host.gather d x idx (ix2 b e)
      = x (ix2 b (⟨min (idx (ix2 e (0 : Fin 1))).toInt.toNat 49999, by omega⟩ : Fin 50000)) := by
  unfold Host.gather
  congr 1
  funext a
  have hnb : ∀ a : Fin 2, a ∉ d.operandBatchingDims := by intro a; rw [hob]; exact List.not_mem_nil
  have hsK : d.sKept = [0] := by
    show Shape.kept _ (d.collapsedSliceDims ++ d.operandBatchingDims) = [0]
    rw [hcoll, hob]; decide
  have hbD : d.batchDims = [1] := by
    show Shape.kept _ d.offsetDims = [1]
    rw [hoff]; decide
  apply Fin.ext
  match a with
  | ⟨0, _⟩ =>
    show d.start (ix2 b e) idx 0 + d.batchCoord (ix2 b e) 0 + d.offCoord (ix2 b e) 0 = b.val
    rw [start_eq_zero_of_not_mem d _ _ _ (by rw [hsim]; decide), d.batchCoord_eq_zero _ _ (hnb 0),
      offCoord_of d _ 0 0 0 (by rw [hsK]; decide) (by rw [hsK]; decide) (by rw [hoff]; rfl)]
    simp
  | ⟨1, _⟩ =>
    show d.start (ix2 b e) idx 1 + d.batchCoord (ix2 b e) 1 + d.offCoord (ix2 b e) 1 = min (idx (ix2 e (0 : Fin 1))).toInt.toNat 49999
    rw [d.batchCoord_eq_zero _ _ (hnb 1), d.offCoord_eq_zero _ _ (by rw [hsK]; decide)]
    simp only [Nat.add_zero]
    unfold GatherDims.start
    rw [dif_pos (show (1 : Fin 2) ∈ d.startIndexMap by rw [hsim]; decide)]
    have hsl : d.sliceSizes 1 = 1 := by rw [hss]; rfl
    show min (idx _).toInt.toNat (50000 - d.sliceSizes 1) = _
    rw [hsl]
    congr 3
    congr 1
    funext c
    apply Fin.ext
    match c with
    | ⟨0, _⟩ =>
      unfold GatherDims.siIdx
      rw [dif_neg (by rw [hivd]; exact Nat.zero_ne_one)]
      rw [siCoord_val_of d _ _ _ 1 (by intro x hx; rw [hbD] at hx; exact List.mem_singleton.1 hx)]
    | ⟨1, _⟩ =>
      unfold GatherDims.siIdx
      rw [dif_pos (by rw [hivd])]
      show List.idxOf (1 : Fin 2) d.startIndexMap = 0
      rw [hsim]; decide

/-- Two tables stacked: result entry (k, b, e) is the operand at table k, row b, column the clamped start index of edge e. -/
theorem gather_cols3 {α : Type} (d : GatherDims ⟨3, ![2, 8, 50000]⟩ ⟨2, ![800000, 1]⟩ ⟨3, ![2, 8, 800000]⟩)
    (hoff : d.offsetDims = [0, 1]) (hcoll : d.collapsedSliceDims = [2]) (hob : d.operandBatchingDims = [])
    (hsb : d.startIndicesBatchingDims = []) (hsim : d.startIndexMap = [2]) (hivd : d.indexVectorDim = 1)
    (hss : d.sliceSizes = ![2, 8, 1])
    (x : (⟨3, ![2, 8, 50000]⟩ : Shape).Idx → α) (idx : IVec ⟨2, ![800000, 1]⟩ 32) (k : Fin 2) (b : Fin 8) (e : Fin 800000) :
    Host.gather d x idx (ix3 k b e)
      = x (ix3 k b (⟨min (idx (ix2 e (0 : Fin 1))).toInt.toNat 49999, by omega⟩ : Fin 50000)) := by
  unfold Host.gather
  congr 1
  funext a
  have hnb : ∀ a : Fin 3, a ∉ d.operandBatchingDims := by intro a; rw [hob]; exact List.not_mem_nil
  have hsK : d.sKept = [0, 1] := by
    show Shape.kept _ (d.collapsedSliceDims ++ d.operandBatchingDims) = [0, 1]
    rw [hcoll, hob]; decide
  have hbD : d.batchDims = [2] := by
    show Shape.kept _ d.offsetDims = [2]
    rw [hoff]; decide
  apply Fin.ext
  match a with
  | ⟨0, _⟩ =>
    show d.start (ix3 k b e) idx 0 + d.batchCoord (ix3 k b e) 0 + d.offCoord (ix3 k b e) 0 = k.val
    rw [start_eq_zero_of_not_mem d _ _ _ (by rw [hsim]; decide), d.batchCoord_eq_zero _ _ (hnb 0),
      offCoord_of d _ 0 0 0 (by rw [hsK]; decide) (by rw [hsK]; decide) (by rw [hoff]; rfl)]
    simp
  | ⟨1, _⟩ =>
    show d.start (ix3 k b e) idx 1 + d.batchCoord (ix3 k b e) 1 + d.offCoord (ix3 k b e) 1 = b.val
    rw [start_eq_zero_of_not_mem d _ _ _ (by rw [hsim]; decide), d.batchCoord_eq_zero _ _ (hnb 1),
      offCoord_of d _ 1 1 1 (by rw [hsK]; decide) (by rw [hsK]; decide) (by rw [hoff]; rfl)]
    simp
  | ⟨2, _⟩ =>
    show d.start (ix3 k b e) idx 2 + d.batchCoord (ix3 k b e) 2 + d.offCoord (ix3 k b e) 2
      = min (idx (ix2 e (0 : Fin 1))).toInt.toNat 49999
    rw [d.batchCoord_eq_zero _ _ (hnb 2), d.offCoord_eq_zero _ _ (by rw [hsK]; decide)]
    simp only [Nat.add_zero]
    unfold GatherDims.start
    rw [dif_pos (show (2 : Fin 3) ∈ d.startIndexMap by rw [hsim]; decide)]
    have hsl : d.sliceSizes 2 = 1 := by rw [hss]; rfl
    show min (idx _).toInt.toNat (50000 - d.sliceSizes 2) = _
    rw [hsl]
    congr 3
    congr 1
    funext c
    apply Fin.ext
    match c with
    | ⟨0, _⟩ =>
      unfold GatherDims.siIdx
      rw [dif_neg (by rw [hivd]; exact Nat.zero_ne_one)]
      rw [siCoord_val_of d _ _ _ 2 (by intro x hx; rw [hbD] at hx; exact List.mem_singleton.1 hx)]
    | ⟨1, _⟩ =>
      unfold GatherDims.siIdx
      rw [dif_pos (by rw [hivd])]
      show List.idxOf (2 : Fin 3) d.startIndexMap = 0
      rw [hsim]; decide

/-- A left fold by the conjunction, from a true value, over entries that are all true, is true. -/
theorem foldl_andi_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_all_one f l _ ?_ (fun n hn => hl n (List.mem_cons_of_mem _ hn))
    rw [h, hl a (List.mem_cons.2 (Or.inl rfl))]; decide

/-- The conjunction of an [800000, 1] mask along its one column, from a true initial value: true at edge e when the
    mask's entry (e, 0) is. -/
theorem reduce_andi_unit_col (c : IVec ⟨2, ![800000, 1]⟩ 1) (init : IVec ⟨0, ![]⟩ 1)
    (h : (⟨2, ![800000, 1]⟩ : Shape).ReducesTo [1] ⟨1, ![800000]⟩) (hu : 0 < (⟨0, ![]⟩ : Shape).numel)
    (hinit : init ix0 = 1#1) (e : Fin 800000) (hc : c (ix2 e (0 : Fin 1)) = 1#1) :
    Host.reduce IntOp.andi c init h hu (ix1 e) = 1#1 := by
  rw [Host.reduce_eq_foldl]
  refine foldl_andi_all_one c _ _ ?_ ?_
  · rw [eq_ix0 (Shape.Idx.first hu)]; exact hinit
  · intro i hi
    rw [List.mem_filter] at hi
    have hd : h.drop i = ix1 e := of_decide_eq_true hi.2
    have hi' : i = ix2 e (0 : Fin 1) := by
      funext a
      apply Fin.ext
      match a with
      | ⟨0, _⟩ =>
        have h0 := h.drop_apply_val_of_eq i 0 0
        rw [hd] at h0
        exact h0.symm
      | ⟨1, _⟩ =>
        have h1 := idx2_lt1 i
        show (i 1).val = 0
        omega
    rw [hi']; exact hc

end Cert.Flow

end
-- ==== Proof.TakeRead.lean ====
/- jnp's `take` along the bus axis, as the kernel's program spells it, read at one edge.

   The bus numbers of the 800000 edges are first wrapped (a negative number counts from the end) and laid out as a
   column of start indices; a mask says which wrapped numbers name a bus (0 ≤ n ≤ 49999), folded along the column's one
   entry; the gather reads the clamped column; and the result keeps the gathered entry where the mask is set. Read at an
   edge whose wrapped number names a bus, the result is the table's entry at that bus. -/
import proofs.«411077_j9019431321744_2_alg».proof.Proof.Flow
import proofs.«411077_j9019431321744_2_alg».proof.Proof.GatherRead
import Idealize.ShloMosaic.Lib.Pipeline.Value
import Idealize.ShloMosaic.Lib.Affine

noncomputable section

open Idealize.ShloMosaic Idealize.ShloMosaic.ValueIdx

namespace Cert.Flow

/-- The column of start indices at edge `e` is the wrapped bus number of `e`. -/
theorem wrapped_col_apply
    (h0 : (⟨0, ![]⟩ : Shape).BroadcastsInDim ⟨1, ![800000]⟩ (![] : Fin 0 → Fin 1))
    (hc : (⟨1, ![800000]⟩ : Shape).BroadcastsInDim ⟨2, ![800000, 1]⟩ (![0] : Fin 1 → Fin 2))
    (w : IVec ⟨1, ![800000]⟩ 32) (e : Fin 800000) :
    broadcastInDim (⟨2, ![800000, 1]⟩ : Shape) ![0] hc
        (select (cmpi .slt w (broadcastInDim (⟨1, ![800000]⟩ : Shape) ![] h0 (constantI ⟨0, ![]⟩ 32 0#32)))
          (addi w (broadcastInDim (⟨1, ![800000]⟩ : Shape) ![] h0 (constantI ⟨0, ![]⟩ 32 50000#32))) w)
        (ix2 e (0 : Fin 1))
      = wrap (w (ix1 e)) := by
  have hk : ∀ a : Fin 1, ((ix1 e) a).val
      = if (⟨1, ![800000]⟩ : Shape).size a = 1 then 0 else ((ix2 e (0 : Fin 1)) ((![0] : Fin 1 → Fin 2) a)).val := by
    intro a
    match a with
    | ⟨0, _⟩ =>
      show e.val = if (800000 : Nat) = 1 then 0 else e.val
      rw [if_neg (by decide)]
  rw [broadcastInDim_apply _ hc _ (ix2 e (0 : Fin 1)) (ix1 e) hk]
  rfl

/-- The in-range mask, folded along the column's one entry, is set at an edge whose start index names a bus. -/
theorem in_range_mask
    (h6 : (⟨0, ![]⟩ : Shape).BroadcastsInDim ⟨2, ![800000, 1]⟩ (![] : Fin 0 → Fin 2))
    (h8 : (⟨1, ![1]⟩ : Shape).BroadcastsInDim ⟨2, ![1, 1]⟩ (![1] : Fin 1 → Fin 2))
    (h9 : (⟨2, ![1, 1]⟩ : Shape).BroadcastsInDim ⟨2, ![800000, 1]⟩ (![0, 1] : Fin 2 → Fin 2))
    (hred : (⟨2, ![800000, 1]⟩ : Shape).ReducesTo [1] ⟨1, ![800000]⟩) (hu : 0 < (⟨0, ![]⟩ : Shape).numel)
    (i5 : IVec ⟨2, ![800000, 1]⟩ 32) (e : Fin 800000)
    (hn : 0 ≤ (i5 (ix2 e (0 : Fin 1))).toInt ∧ (i5 (ix2 e (0 : Fin 1))).toInt < 50000) :
    Host.reduce IntOp.andi
        (andi (cmpi .sge i5 (broadcastInDim (⟨2, ![800000, 1]⟩ : Shape) ![] h6 (constantI ⟨0, ![]⟩ 32 0#32)))
          (cmpi .sle i5 (broadcastInDim (⟨2, ![800000, 1]⟩ : Shape) ![0, 1] h9
            (broadcastInDim (⟨2, ![1, 1]⟩ : Shape) ![1] h8 (constantI ⟨1, ![1]⟩ 32 49999#32)))))
        (constantI ⟨0, ![]⟩ 1 1#1) hred hu (ix1 e) = 1#1 := by
  refine reduce_andi_unit_col _ _ hred hu rfl e ?_
  show IntOp.andi (IntOp.cmpi .sge (i5 (ix2 e (0 : Fin 1))) 0#32) (IntOp.cmpi .sle (i5 (ix2 e (0 : Fin 1))) 49999#32) = 1#1
  have h0 : (0#32 : BitVec 32).toInt = 0 := by decide
  have h1 : (49999#32 : BitVec 32).toInt = 49999 := by decide
  rw [IntOp.andi_eq_one, IntOp.cmpi_sge, IntOp.cmpi_sle, h0, h1]
  omega

/-- Where the mask is set, the masked gather of two stacked tables is the table's entry at the clamped start index. -/
theorem masked_gather_apply {α : Type} (d : GatherDims ⟨3, ![2, 8, 50000]⟩ ⟨2, ![800000, 1]⟩ ⟨3, ![2, 8, 800000]⟩)
    (hoff : d.offsetDims = [0, 1]) (hcoll : d.collapsedSliceDims = [2]) (hob : d.operandBatchingDims = [])
    (hsb : d.startIndicesBatchingDims = []) (hsim : d.startIndexMap = [2]) (hivd : d.indexVectorDim = 1)
    (hss : d.sliceSizes = ![2, 8, 1])
    (hb : (⟨1, ![800000]⟩ : Shape).BroadcastsInDim ⟨3, ![2, 8, 800000]⟩ (![2] : Fin 1 → Fin 3))
    (x : (⟨3, ![2, 8, 50000]⟩ : Shape).Idx → α) (i5 : IVec ⟨2, ![800000, 1]⟩ 32) (mask : IVec ⟨1, ![800000]⟩ 1)
    (fill : (⟨3, ![2, 8, 800000]⟩ : Shape).Idx → α) (k : Fin 2) (b : Fin 8) (e : Fin 800000)
    (hm : mask (ix1 e) = 1#1) :
    select (broadcastInDim (⟨3, ![2, 8, 800000]⟩ : Shape) ![2] hb mask) (Host.gather d x i5) fill (ix3 k b e)
      = x (ix3 k b (⟨min (i5 (ix2 e (0 : Fin 1))).toInt.toNat 49999, by omega⟩ : Fin 50000)) := by
  have hk : ∀ a : Fin 1, ((ix1 e) a).val
      = if (⟨1, ![800000]⟩ : Shape).size a = 1 then 0 else ((ix3 k b e) ((![2] : Fin 1 → Fin 3) a)).val := by
    intro a
    match a with
    | ⟨0, _⟩ =>
      show e.val = if (800000 : Nat) = 1 then 0 else e.val
      rw [if_neg (by decide)]
  show Scalar.select (broadcastInDim (⟨3, ![2, 8, 800000]⟩ : Shape) ![2] hb mask (ix3 k b e))
      (Host.gather d x i5 (ix3 k b e)) (fill (ix3 k b e)) = _
  rw [broadcastInDim_apply _ hb mask (ix3 k b e) (ix1 e) hk, hm, select_one]
  exact gather_cols3 d hoff hcoll hob hsb hsim hivd hss x i5 k b e

end Cert.Flow

end
-- ==== Proof.StackRead.lean ====
/- Two [8, n] tables stacked into one [2, 8, n] array, and one table taken back out of such an array, read at an entry.

   Stacking is printed as a concatenation along a new leading axis of the two tables each given that axis with extent
   one; taking table k back out is a slice of extent one on the leading axis followed by dropping that axis. Entry
   (k, r, j) of the stack is entry (r, j) of table k, and entry (r, j) of the table taken out at k is entry (k, r, j). -/
import Idealize.ShloMosaic.PureOps.ShapeOps
import Idealize.ShloMosaic.Lib.Pipeline.Value
import Idealize.ShloMosaic.Lib.ValueIdx

noncomputable section

open Idealize.ShloMosaic Idealize.ShloMosaic.ValueIdx

namespace Cert.Flow

/-- Entry (k, r, j) of two stacked tables is entry (r, j) of the first table when k = 0 and of the second when k = 1. -/
theorem stack_apply {α : Type} {n : Nat}
    (hb : (⟨2, ![8, n]⟩ : Shape).BroadcastsInDim ⟨3, ![1, 8, n]⟩ (![1, 2] : Fin 2 → Fin 3))
    (hcat : Shape.Concatenates [(⟨3, ![1, 8, n]⟩ : Shape), (⟨3, ![1, 8, n]⟩ : Shape)] ⟨3, ![2, 8, n]⟩ 0)
    (a b : (⟨2, ![8, n]⟩ : Shape).Idx → α) (k : Fin 2) (r : Fin 8) (j : Fin n) :
    concatenate (⟨3, ![2, 8, n]⟩ : Shape) 0
        [⟨(⟨3, ![1, 8, n]⟩ : Shape), broadcastInDim (⟨3, ![1, 8, n]⟩ : Shape) ![1, 2] hb a⟩,
         ⟨(⟨3, ![1, 8, n]⟩ : Shape), broadcastInDim (⟨3, ![1, 8, n]⟩ : Shape) ![1, 2] hb b⟩] hcat (ix3 k r j)
      = if k = 0 then a (ix2 r j) else b (ix2 r j) := by
  -- a table given a leading unit axis reads, at (0, r, j), the table at (r, j)
  have hbc : ∀ v : (⟨2, ![8, n]⟩ : Shape).Idx → α,
      broadcastInDim (⟨3, ![1, 8, n]⟩ : Shape) ![1, 2] hb v (ix3 (0 : Fin 1) r j) = v (ix2 r j) := by
    intro v
    refine broadcastInDim_apply _ hb v (ix3 (0 : Fin 1) r j) (ix2 r j) fun c => ?_
    match c with
    | ⟨0, _⟩ =>
      show r.val = if (8 : ℕ) = 1 then 0 else r.val
      rw [if_neg (by decide)]
    | ⟨1, _⟩ =>
      show j.val = if n = 1 then 0 else j.val
      split
      · next h1 => have := j.isLt; omega
      · rfl
  by_cases hk : k = 0
  · subst hk
    rw [if_pos rfl]
    refine (concatenate_pair_apply_left (t := ⟨3, ![2, 8, n]⟩) (s₁ := ⟨3, ![1, 8, n]⟩) (s₂ := ⟨3, ![1, 8, n]⟩) (0 : Fin 3)
      _ _ hcat (ix3 (0 : Fin 2) r j) rfl (ix3 (0 : Fin 1) r j) fun c => ?_).trans (hbc a)
    match c with
    | ⟨0, _⟩ => rfl
    | ⟨1, _⟩ => rfl
    | ⟨2, _⟩ => rfl
  · have hk1 : k = 1 := Fin.ext (by
      have := k.isLt
      have : k.val ≠ 0 := fun h => hk (Fin.ext h)
      show k.val = 1
      omega)
    subst hk1
    rw [if_neg hk]
    refine (concatenate_pair_apply_right (t := ⟨3, ![2, 8, n]⟩) (s₁ := ⟨3, ![1, 8, n]⟩) (s₂ := ⟨3, ![1, 8, n]⟩) (0 : Fin 3)
      _ _ hcat (ix3 (1 : Fin 2) r j) rfl rfl (ix3 (0 : Fin 1) r j) (fun c => ?_) rfl).trans (hbc b)
    match c with
    | ⟨0, _⟩ => exact fun h => absurd rfl h
    | ⟨1, _⟩ => exact fun _ => rfl
    | ⟨2, _⟩ => exact fun _ => rfl

/-- Entry (r, j) of the first table taken out of a stack is the stack's entry (0, r, j). -/
theorem unstack0_apply {α : Type} {n : Nat}
    (hs : (⟨3, ![2, 8, n]⟩ : Shape).Slices ![0, 0, 0] ⟨3, ![1, 8, n]⟩)
    (hc : (⟨3, ![1, 8, n]⟩ : Shape).ShapeCasts ⟨2, ![8, n]⟩)
    (x : (⟨3, ![2, 8, n]⟩ : Shape).Idx → α) (r : Fin 8) (j : Fin n) :
    shapeCast (⟨2, ![8, n]⟩ : Shape) (extractStridedSlice (⟨3, ![1, 8, n]⟩ : Shape) ![0, 0, 0] x hs) hc (ix2 r j)
      = x (ix3 (0 : Fin 2) r j) := by
  refine (shapeCast_apply _ hc (ix2 r j) (ix3 (0 : Fin 1) r j) ?_).trans ?_
  · rw [Shape.rowMajor_val_three, Shape.rowMajor_val_two]
    show (0 * 8 + r.val) * n + j.val = r.val * n + j.val
    rw [Nat.zero_mul, Nat.zero_add]
  · refine extractStridedSlice_apply _ x hs (ix3 (0 : Fin 1) r j) (ix3 (0 : Fin 2) r j) fun c => ?_
    match c with
    | ⟨0, _⟩ => rfl
    | ⟨1, _⟩ => show r.val = 0 + r.val; omega
    | ⟨2, _⟩ => show j.val = 0 + j.val; omega

/-- Entry (r, j) of the second table taken out of a stack is the stack's entry (1, r, j). -/
theorem unstack1_apply {α : Type} {n : Nat}
    (hs : (⟨3, ![2, 8, n]⟩ : Shape).Slices ![1, 0, 0] ⟨3, ![1, 8, n]⟩)
    (hc : (⟨3, ![1, 8, n]⟩ : Shape).ShapeCasts ⟨2, ![8, n]⟩)
    (x : (⟨3, ![2, 8, n]⟩ : Shape).Idx → α) (r : Fin 8) (j : Fin n) :
    shapeCast (⟨2, ![8, n]⟩ : Shape) (extractStridedSlice (⟨3, ![1, 8, n]⟩ : Shape) ![1, 0, 0] x hs) hc (ix2 r j)
      = x (ix3 (1 : Fin 2) r j) := by
  refine (shapeCast_apply _ hc (ix2 r j) (ix3 (0 : Fin 1) r j) ?_).trans ?_
  · rw [Shape.rowMajor_val_three, Shape.rowMajor_val_two]
    show (0 * 8 + r.val) * n + j.val = r.val * n + j.val
    rw [Nat.zero_mul, Nat.zero_add]
  · refine extractStridedSlice_apply _ x hs (ix3 (0 : Fin 1) r j) (ix3 (1 : Fin 2) r j) fun c => ?_
    match c with
    | ⟨0, _⟩ => rfl
    | ⟨1, _⟩ => show r.val = 0 + r.val; omega
    | ⟨2, _⟩ => show j.val = 0 + j.val; omega

end Cert.Flow

end
-- ==== Proof.ScatterRead.lean ====
/- The accumulating scatter of the power flows, read at one bus: each entry of the result is the operand's entry plus
   the sum of the updates of the edges whose (signed) start index is that bus; an edge whose index names no bus adds
   nothing. Stated for the two layouts the two programs use: one [8, 50000] table, and two of them stacked. -/
import Idealize.ShloMosaic.PureOps.Ideal
import Idealize.ShloMosaic.PureOps.Contract
import Idealize.ShloMosaic.Lib.ValueIdx

noncomputable section

open Idealize.ShloMosaic Idealize.ShloMosaic.ValueIdx

namespace Cert.Flow

/-- An entry of a list that equals a known list, at a position that equals a known position, is that list's entry there. -/
theorem getElem_eq_of {α : Type} {l l' : List α} (hl : l = l') {i i' : Nat} (hi : i = i') (h : i < l.length) (x : α)
    (hx : l'[i']? = some x) : l[i] = x := by
  subst hl; subst hi
  rw [List.getElem?_eq_getElem h] at hx
  exact Option.some.inj hx

/-- An update lands at operand index `i` exactly when, on every operand axis, its start plus its window coordinate is
    `i`'s coordinate (inside the operand, then, since `i` is). -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro he a
      have hf := congrFun (Option.some.inj he) a
      have hv : (d.start j idx a + (d.window j a : ℤ)).toNat = (i a).val := congrArg Fin.val hf
      have := (h a).1
      omega
    · intro hall
      congr 1
      funext a
      apply Fin.ext
      show (d.start j idx a + (d.window j a : ℤ)).toNat = (i a).val
      have := hall a
      omega
  · next h =>
    constructor
    · intro he
      exact absurd he (by simp)
    · intro hall
      exfalso
      apply h
      intro a
      have := hall a
      have := (i a).isLt
      omega

/-- Rank 2: the update at (c, e) lands at (b, n) exactly when it is in row b and edge e's signed start index is n. -/
theorem rows2_land (d : ScatterDims ⟨2, ![8, 50000]⟩ ⟨2, ![800000, 1]⟩ ⟨2, ![8, 800000]⟩)
    (huw : d.updateWindowDims = [0]) (hiw : d.insertedWindowDims = [1]) (hsd : d.scatterDimsToOperandDims = [1])
    (hiv : d.indexVectorDim = 1) (idx : IVec ⟨2, ![800000, 1]⟩ 32) (c b : Fin 8) (e : Fin 800000) (n : Fin 50000) :
    d.resultIdx? (ix2 c e) idx = some (ix2 b n) ↔ c = b ∧ (idx (ix2 e (0 : Fin 1))).toInt = (n.val : ℤ) := by
  have hsk : d.sKept = [0] := by
    show Shape.kept _ d.insertedWindowDims = _
    rw [hiw]; rfl
  have hus : d.uScatter = [1] := by
    show Shape.kept _ d.updateWindowDims = _
    rw [huw]; rfl
  have hsik : d.siKept = [0] := by
    show (List.finRange _).filter (fun b => b.val ≠ d.indexVectorDim) = _
    rw [hiv]; rfl
  have hs0 : d.start (ix2 c e) idx 0 = 0 := by
    unfold ScatterDims.start
    rw [dif_neg (by rw [hsd]; decide)]
  have hw0 : d.window (ix2 c e) 0 = c.val := by
    unfold ScatterDims.window
    rw [dif_pos (by rw [hsk]; decide)]
    exact congrArg (fun a => ((ix2 c e : (⟨2, ![8, 800000]⟩ : Shape).Idx) a).val)
      (getElem_eq_of huw (by rw [hsk]) _ 0 rfl)
  have hw1 : d.window (ix2 c e) 1 = 0 := by
    unfold ScatterDims.window
    rw [dif_neg (by rw [hsk]; decide)]
  have hs1 : d.start (ix2 c e) idx 1 = (idx (ix2 e (0 : Fin 1))).toInt := by
    unfold ScatterDims.start
    rw [dif_pos (by rw [hsd]; decide)]
    congr 2
    funext a
    match a with
    | ⟨0, _⟩ =>
      unfold ScatterDims.siIdx
      rw [dif_neg (by rw [hiv]; exact Nat.zero_ne_one)]
      unfold ScatterDims.siCoord
      apply Fin.ext
      exact congrArg (fun a => ((ix2 c e : (⟨2, ![8, 800000]⟩ : Shape).Idx) a).val)
        (getElem_eq_of hus (by rw [hsik]) _ 1 rfl)
    | ⟨1, _⟩ =>
      unfold ScatterDims.siIdx
      rw [dif_pos (by rw [hiv])]
      apply Fin.ext
      show List.idxOf (1 : Fin 2) d.scatterDimsToOperandDims = 0
      rw [hsd]; rfl
  rw [resultIdx?_eq_some_iff]
  constructor
  · intro h
    have h0 := h 0
    have h1 := h 1
    rw [hs0, hw0] at h0
    rw [hs1, hw1] at h1
    refine ⟨Fin.ext ?_, ?_⟩
    · change (0 : ℤ) + (c.val : ℤ) = (b.val : ℤ) at h0
      omega
    · change (idx (ix2 e (0 : Fin 1))).toInt + ((0 : ℕ) : ℤ) = (n.val : ℤ) at h1
      omega
  · rintro ⟨rfl, hn⟩ a
    match a with
    | ⟨0, _⟩ =>
      show d.start (ix2 c e) idx 0 + (d.window (ix2 c e) 0 : ℤ) = (c.val : ℤ)
      rw [hs0, hw0]; omega
    | ⟨1, _⟩ =>
      show d.start (ix2 c e) idx 1 + (d.window (ix2 c e) 1 : ℤ) = (n.val : ℤ)
      rw [hs1, hw1]; omega

/-- One table of buses: rows of [8, 800000] updates scattered along the bus axis of an [8, 50000] operand. -/
theorem scatterAdd_rows2 (d : ScatterDims ⟨2, ![8, 50000]⟩ ⟨2, ![800000, 1]⟩ ⟨2, ![8, 800000]⟩)
    (huw : d.updateWindowDims = [0]) (hiw : d.insertedWindowDims = [1]) (hsd : d.scatterDimsToOperandDims = [1])
    (hiv : d.indexVectorDim = 1)
    (x : FVec Ideal ⟨2, ![8, 50000]⟩ .f32) (idx : IVec ⟨2, ![800000, 1]⟩ 32) (upd : FVec Ideal ⟨2, ![8, 800000]⟩ .f32)
    (b : Fin 8) (n : Fin 50000) :
    Host.scatterAdd d x idx upd (ix2 b n)
      = x (ix2 b n) + ∑ e ∈ Finset.univ.filter (fun e : Fin 800000 => (idx (ix2 e (0 : Fin 1))).toInt = (n.val : ℤ)),
          upd (ix2 b e) := by
  show Ideal.hostScatterAdd d x idx upd (ix2 b n) = _
  unfold Ideal.hostScatterAdd
  refine congrArg (fun z => x (ix2 b n) + z) ?_
  refine Finset.sum_nbij' (fun j => j 1) (fun e => ix2 b e) ?_ ?_ ?_ ?_ ?_
  · intro j hj
    obtain ⟨c, e, rfl⟩ : ∃ c e, j = ix2 c e := ⟨j 0, j 1, eq_ix2 j⟩
    rw [Finset.mem_filter] at hj ⊢
    exact ⟨Finset.mem_univ _, ((rows2_land d huw hiw hsd hiv idx c b e n).mp hj.2).2⟩
  · intro e he
    rw [Finset.mem_filter] at he ⊢
    exact ⟨Finset.mem_univ _, (rows2_land d huw hiw hsd hiv idx b b e n).mpr ⟨rfl, he.2⟩⟩
  · intro j hj
    obtain ⟨c, e, rfl⟩ : ∃ c e, j = ix2 c e := ⟨j 0, j 1, eq_ix2 j⟩
    rw [Finset.mem_filter] at hj
    obtain ⟨rfl, _⟩ := (rows2_land d huw hiw hsd hiv idx c b e n).mp hj.2
    rfl
  · intro e _
    rfl
  · intro j hj
    obtain ⟨c, e, rfl⟩ : ∃ c e, j = ix2 c e := ⟨j 0, j 1, eq_ix2 j⟩
    rw [Finset.mem_filter] at hj
    obtain ⟨rfl, _⟩ := (rows2_land d huw hiw hsd hiv idx c b e n).mp hj.2
    rfl

/-- Rank 3: the update at (k', c, e) lands at (k, b, n) exactly when it is in table k, row b, and edge e's signed start
    index is n. -/
theorem rows3_land (d : ScatterDims ⟨3, ![2, 8, 50000]⟩ ⟨2, ![800000, 1]⟩ ⟨3, ![2, 8, 800000]⟩)
    (huw : d.updateWindowDims = [0, 1]) (hiw : d.insertedWindowDims = [2]) (hsd : d.scatterDimsToOperandDims = [2])
    (hiv : d.indexVectorDim = 1) (idx : IVec ⟨2, ![800000, 1]⟩ 32) (k' k : Fin 2) (c b : Fin 8) (e : Fin 800000)
    (n : Fin 50000) :
    d.resultIdx? (ix3 k' c e) idx = some (ix3 k b n)
      ↔ (k' = k ∧ c = b) ∧ (idx (ix2 e (0 : Fin 1))).toInt = (n.val : ℤ) := by
  have hsk : d.sKept = [0, 1] := by
    show Shape.kept _ d.insertedWindowDims = _
    rw [hiw]; rfl
  have hus : d.uScatter = [2] := by
    show Shape.kept _ d.updateWindowDims = _
    rw [huw]; rfl
  have hsik : d.siKept = [0] := by
    show (List.finRange _).filter (fun b => b.val ≠ d.indexVectorDim) = _
    rw [hiv]; rfl
  have hs0 : d.start (ix3 k' c e) idx 0 = 0 := by
    unfold ScatterDims.start
    rw [dif_neg (by rw [hsd]; decide)]
  have hs1 : d.start (ix3 k' c e) idx 1 = 0 := by
    unfold ScatterDims.start
    rw [dif_neg (by rw [hsd]; decide)]
  have hw0 : d.window (ix3 k' c e) 0 = k'.val := by
    unfold ScatterDims.window
    rw [dif_pos (by rw [hsk]; decide)]
    exact congrArg (fun a => ((ix3 k' c e : (⟨3, ![2, 8, 800000]⟩ : Shape).Idx) a).val)
      (getElem_eq_of huw (by rw [hsk]) _ 0 rfl)
  have hw1 : d.window (ix3 k' c e) 1 = c.val := by
    unfold ScatterDims.window
    rw [dif_pos (by rw [hsk]; decide)]
    exact congrArg (fun a => ((ix3 k' c e : (⟨3, ![2, 8, 800000]⟩ : Shape).Idx) a).val)
      (getElem_eq_of huw (by rw [hsk]) _ 1 rfl)
  have hw2 : d.window (ix3 k' c e) 2 = 0 := by
    unfold ScatterDims.window
    rw [dif_neg (by rw [hsk]; decide)]
  have hs2 : d.start (ix3 k' c e) idx 2 = (idx (ix2 e (0 : Fin 1))).toInt := by
    unfold ScatterDims.start
    rw [dif_pos (by rw [hsd]; decide)]
    congr 2
    funext a
    match a with
    | ⟨0, _⟩ =>
      unfold ScatterDims.siIdx
      rw [dif_neg (by rw [hiv]; exact Nat.zero_ne_one)]
      unfold ScatterDims.siCoord
      apply Fin.ext
      exact congrArg (fun a => ((ix3 k' c e : (⟨3, ![2, 8, 800000]⟩ : Shape).Idx) a).val)
        (getElem_eq_of hus (by rw [hsik]) _ 2 rfl)
    | ⟨1, _⟩ =>
      unfold ScatterDims.siIdx
      rw [dif_pos (by rw [hiv])]
      apply Fin.ext
      show List.idxOf (2 : Fin 3) d.scatterDimsToOperandDims = 0
      rw [hsd]; rfl
  rw [resultIdx?_eq_some_iff]
  constructor
  · intro h
    have h0 := h 0
    have h1 := h 1
    have h2 := h 2
    rw [hs0, hw0] at h0
    rw [hs1, hw1] at h1
    rw [hs2, hw2] at h2
    refine ⟨⟨Fin.ext ?_, Fin.ext ?_⟩, ?_⟩
    · change (0 : ℤ) + (k'.val : ℤ) = (k.val : ℤ) at h0
      omega
    · change (0 : ℤ) + (c.val : ℤ) = (b.val : ℤ) at h1
      omega
    · change (idx (ix2 e (0 : Fin 1))).toInt + ((0 : ℕ) : ℤ) = (n.val : ℤ) at h2
      omega
  · rintro ⟨⟨rfl, rfl⟩, hn⟩ a
    match a with
    | ⟨0, _⟩ =>
      show d.start (ix3 k' c e) idx 0 + (d.window (ix3 k' c e) 0 : ℤ) = (k'.val : ℤ)
      rw [hs0, hw0]; omega
    | ⟨1, _⟩ =>
      show d.start (ix3 k' c e) idx 1 + (d.window (ix3 k' c e) 1 : ℤ) = (c.val : ℤ)
      rw [hs1, hw1]; omega
    | ⟨2, _⟩ =>
      show d.start (ix3 k' c e) idx 2 + (d.window (ix3 k' c e) 2 : ℤ) = (n.val : ℤ)
      rw [hs2, hw2]; omega

/-- Two tables stacked: [2, 8, 800000] updates scattered along the bus axis of a [2, 8, 50000] operand. -/
theorem scatterAdd_rows3 (d : ScatterDims ⟨3, ![2, 8, 50000]⟩ ⟨2, ![800000, 1]⟩ ⟨3, ![2, 8, 800000]⟩)
    (huw : d.updateWindowDims = [0, 1]) (hiw : d.insertedWindowDims = [2]) (hsd : d.scatterDimsToOperandDims = [2])
    (hiv : d.indexVectorDim = 1)
    (x : FVec Ideal ⟨3, ![2, 8, 50000]⟩ .f32) (idx : IVec ⟨2, ![800000, 1]⟩ 32) (upd : FVec Ideal ⟨3, ![2, 8, 800000]⟩ .f32)
    (k : Fin 2) (b : Fin 8) (n : Fin 50000) :
    Host.scatterAdd d x idx upd (ix3 k b n)
      = x (ix3 k b n) + ∑ e ∈ Finset.univ.filter (fun e : Fin 800000 => (idx (ix2 e (0 : Fin 1))).toInt = (n.val : ℤ)),
          upd (ix3 k b e) := by
  show Ideal.hostScatterAdd d x idx upd (ix3 k b n) = _
  unfold Ideal.hostScatterAdd
  refine congrArg (fun z => x (ix3 k b n) + z) ?_
  refine Finset.sum_nbij' (fun j => j 2) (fun e => ix3 k b e) ?_ ?_ ?_ ?_ ?_
  · intro j hj
    obtain ⟨k', c, e, rfl⟩ : ∃ k' c e, j = ix3 k' c e := ⟨j 0, j 1, j 2, eq_ix3 j⟩
    rw [Finset.mem_filter] at hj ⊢
    exact ⟨Finset.mem_univ _, ((rows3_land d huw hiw hsd hiv idx k' k c b e n).mp hj.2).2⟩
  · intro e he
    rw [Finset.mem_filter] at he ⊢
    exact ⟨Finset.mem_univ _, (rows3_land d huw hiw hsd hiv idx k k b b e n).mpr ⟨⟨rfl, rfl⟩, he.2⟩⟩
  · intro j hj
    obtain ⟨k', c, e, rfl⟩ : ∃ k' c e, j = ix3 k' c e := ⟨j 0, j 1, j 2, eq_ix3 j⟩
    rw [Finset.mem_filter] at hj
    obtain ⟨⟨rfl, rfl⟩, _⟩ := (rows3_land d huw hiw hsd hiv idx k' k c b e n).mp hj.2
    rfl
  · intro e _
    rfl
  · intro j hj
    obtain ⟨k', c, e, rfl⟩ : ∃ k' c e, j = ix3 k' c e := ⟨j 0, j 1, j 2, eq_ix3 j⟩
    rw [Finset.mem_filter] at hj
    obtain ⟨⟨rfl, rfl⟩, _⟩ := (rows3_land d huw hiw hsd hiv idx k' k c b e n).mp hj.2
    rfl

end Cert.Flow

end
-- ==== Proof.KDefs.lean ====
/- The pure functions the kernel's program computes around its one region, named once.

   Before the region: the from- and to-rows of `edge_index`; the wrapped bus numbers laid out as a column of start
   indices; magnitudes and angles stacked into one [2, 8, 50000] table; and jnp's `take` of that table along an index
   row (the gathered entry where the wrapped number names a bus, a fill value elsewhere). After the region: the two
   flow tables stacked, scatter-added into a zero [2, 8, 50000] table at the wrapped from-numbers, and the two halves of
   the result taken back out. -/
import proofs.«411077_j9019431321744_2_alg».proof.Proof.Gen.KernelIdeal
import proofs.«411077_j9019431321744_2_alg».proof.Proof.Flow
import proofs.«411077_j9019431321744_2_alg».proof.Proof.TakeRead
import proofs.«411077_j9019431321744_2_alg».proof.Proof.StackRead
import proofs.«411077_j9019431321744_2_alg».proof.Proof.ScatterRead

noncomputable section

open Idealize.ShloMosaic Idealize.ShloMosaic.ValueIdx

namespace Cert.KernelIdeal.K

open Cert.KernelIdeal Cert.KernelIdeal.Gen Cert.Flow

variable {F : FTy → Type} [FloatOps F]

/-- The from-bus number of every edge: the first row of `edge_index`. -/
def srcRow (ei : IVec S2x800000 32) : IVec S800000 32 :=
  shapeCast S800000 (extractStridedSlice S1x800000 ![0, 0] ei slices_S2x800000_S1x800000_0_0) shapeCasts_S1x800000_S800000

/-- The to-bus number of every edge: the second row. -/
def dstRow (ei : IVec S2x800000 32) : IVec S800000 32 :=
  shapeCast S800000 (extractStridedSlice S1x800000 ![1, 0] ei slices_S2x800000_S1x800000_1_0) shapeCasts_S1x800000_S800000

/-- Bus numbers wrapped (a negative one counts from the end) and laid out as a column of start indices. -/
def wrapCol (w : IVec S800000 32) : IVec S800000x1 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- The column's entry at edge `e` is the wrapped number of `e`. -/
theorem wrapCol_apply (w : IVec S800000 32) (e : Fin 800000) : wrapCol w (ix2 e (0 : Fin 1)) = wrap (w (ix1 e)) :=
  wrapped_col_apply bcast_S_S800000 bcast_S800000_S800000x1_0 w e

/-- Two [8, 50000] tables stacked. -/
def stackN (a b : FVec F S8x50000 .f32) : FVec F S2x8x50000 .f32 :=
  concatenate S2x8x50000 0
    [⟨S1x8x50000, broadcastInDim S1x8x50000 ![1, 2] bcast_S8x50000_S1x8x50000_1_2 a⟩,
     ⟨S1x8x50000, broadcastInDim S1x8x50000 ![1, 2] bcast_S8x50000_S1x8x50000_1_2 b⟩]
    concatenates_S1x8x50000_S1x8x50000_S2x8x50000_d0

/-- Two [8, 800000] tables stacked. -/
def stackE (a b : FVec F S8x800000 .f32) : FVec F S2x8x800000 .f32 :=
  concatenate S2x8x800000 0
    [⟨S1x8x800000, broadcastInDim S1x8x800000 ![1, 2] bcast_S8x800000_S1x8x800000_1_2 a⟩,
     ⟨S1x8x800000, broadcastInDim S1x8x800000 ![1, 2] bcast_S8x800000_S1x8x800000_1_2 b⟩]
    concatenates_S1x8x800000_S1x8x800000_S2x8x800000_d0

/-- jnp's `take` of a stacked table along an index row: where the wrapped number names a bus (0 ≤ n ≤ 49999) the
    gathered entry, elsewhere the fill word. -/
def takeCols (x : FVec F S2x8x50000 .f32) (w : IVec S800000 32) : FVec F S2x8x800000 .f32 :=
  select
    (broadcastInDim S2x8x800000 ![2] bcast_S800000_S2x8x800000_2
      (Host.reduce IntOp.andi
        (andi (cmpi .sge (wrapCol w) (broadcastInDim S800000x1 ![] bcast_S_S800000x1 (constantI S_ 32 0#32)))
          (cmpi .sle (wrapCol w)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S2x8x50000_S800000x1_S2x8x800000_01_2_n_n_2_1_281 x (wrapCol w))
    (broadcastInDim S2x8x800000 ![] bcast_S_S2x8x800000 (constant S_ .f32 0x7FC00000#32))

/-- The first table of a stack of edge tables. -/
def firstE (x : FVec F S2x8x800000 .f32) : FVec F S8x800000 .f32 :=
  shapeCast S8x800000 (extractStridedSlice S1x8x800000 ![0, 0, 0] x slices_S2x8x800000_S1x8x800000_0_0_0) shapeCasts_S1x8x800000_S8x800000
/-- The second table of a stack of edge tables. -/
def secondE (x : FVec F S2x8x800000 .f32) : FVec F S8x800000 .f32 :=
  shapeCast S8x800000 (extractStridedSlice S1x8x800000 ![1, 0, 0] x slices_S2x8x800000_S1x8x800000_1_0_0) shapeCasts_S1x8x800000_S8x800000
/-- The first table of a stack of bus tables. -/
def firstN (x : FVec F S2x8x50000 .f32) : FVec F S8x50000 .f32 :=
  shapeCast S8x50000 (extractStridedSlice S1x8x50000 ![0, 0, 0] x slices_S2x8x50000_S1x8x50000_0_0_0) shapeCasts_S1x8x50000_S8x50000
/-- The second table of a stack of bus tables. -/
def secondN (x : FVec F S2x8x50000 .f32) : FVec F S8x50000 .f32 :=
  shapeCast S8x50000 (extractStridedSlice S1x8x50000 ![1, 0, 0] x slices_S2x8x50000_S1x8x50000_1_0_0) shapeCasts_S1x8x50000_S8x50000

/-- The two flow tables stacked and scatter-added into a zero table at the wrapped from-numbers. -/
def scat (p q : FVec F S8x800000 .f32) (w : IVec S800000 32) : FVec F S2x8x50000 .f32 :=
  Host.scatterAdd scatter_S2x8x50000_S800000x1_S2x8x800000_01_2_2_1
    (broadcastInDim S2x8x50000 ![] bcast_S_S2x8x50000 (constant S_ .f32 0x00000000#32)) (wrapCol w) (stackE p q)

end Cert.KernelIdeal.K

end
-- ==== Proof.KPrefix.lean ====
/- What the kernel's region finds in its input arrays.

   The host operations before the region cut `edge_index` into its from- and to-rows, stack magnitudes and angles into
   one table, `take` that table along each row, and unstack the two results: the region's first four inputs are the
   from-end magnitudes, the to-end magnitudes, the from-end angles and the to-end angles of the edges. Read at an edge
   whose wrapped bus number names a bus, each is the table's entry at that bus. -/
import proofs.«411077_j9019431321744_2_alg».proof.Proof.KernelIdealFrame
import proofs.«411077_j9019431321744_2_alg».proof.Proof.KDefs
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo Idealize.ShloMosaic.ValueIdx

namespace Cert.KernelIdeal.Prefix

open Cert.KernelIdeal Cert.KernelIdeal.Gen Cert.KernelIdeal.GenP Cert.KernelIdeal.K Cert.Flow

/-- Where the wrapped number of edge `e` names a bus, the first table taken out of a `take` of two stacked tables is the
    first table's entry at that bus. -/
theorem firstE_takeCols_apply (a b : FVec Ideal S8x50000 .f32) (w : IVec S800000 32) (r : Fin 8) (e : Fin 800000)
    (h : 0 ≤ (wrap (w (ix1 e))).toInt ∧ (wrap (w (ix1 e))).toInt < 50000) :
    firstE (takeCols (F := Ideal) (stackN a b) w) (ix2 r e) = a (ix2 r (busCol (w (ix1 e)))) := by
  unfold firstE
  refine (unstack0_apply (n := 800000) _ _ _ r e).trans ?_
  unfold takeCols
  refine (masked_gather_apply _ rfl rfl rfl rfl rfl rfl rfl _ _ (wrapCol w) _ _ (0 : Fin 2) r e
    (in_range_mask _ _ _ _ _ (wrapCol w) e (by rw [wrapCol_apply]; exact h))).trans ?_
  unfold stackN
  refine (stack_apply (n := 50000) _ _ a b (0 : Fin 2) r _).trans ?_
  rw [if_pos rfl]
  refine congrArg (fun c => a (ix2 r c)) (Fin.ext ?_)
  show min (wrapCol w (ix2 e (0 : Fin 1))).toInt.toNat 49999 = min (wrap (w (ix1 e))).toInt.toNat 49999
  rw [wrapCol_apply]

/-- … and the second table taken out is the second table's entry at that bus. -/
theorem secondE_takeCols_apply (a b : FVec Ideal S8x50000 .f32) (w : IVec S800000 32) (r : Fin 8) (e : Fin 800000)
    (h : 0 ≤ (wrap (w (ix1 e))).toInt ∧ (wrap (w (ix1 e))).toInt < 50000) :
    secondE (takeCols (F := Ideal) (stackN a b) w) (ix2 r e) = b (ix2 r (busCol (w (ix1 e)))) := by
  unfold secondE
  refine (unstack1_apply (n := 800000) _ _ _ r e).trans ?_
  unfold takeCols
  refine (masked_gather_apply _ rfl rfl rfl rfl rfl rfl rfl _ _ (wrapCol w) _ _ (1 : Fin 2) r e
    (in_range_mask _ _ _ _ _ (wrapCol w) e (by rw [wrapCol_apply]; exact h))).trans ?_
  unfold stackN
  refine (stack_apply (n := 50000) _ _ a b (1 : Fin 2) r _).trans ?_
  rw [if_neg (by decide)]
  refine congrArg (fun c => b (ix2 r c)) (Fin.ext ?_)
  show min (wrapCol w (ix2 e (0 : Fin 1))).toInt.toNat 49999 = min (wrap (w (ix1 e))).toInt.toNat 49999
  rw [wrapCol_apply]

variable (m : (ℓ : Loc nD τ sig) → Buf (Elt Ideal) ℓ) (c : Dev nD)

section Stretches

variable {F : FTy → Type} [FloatOps F]

/-- A buffer no operation of a line writes keeps its contents. -/
theorem keep_of (ops : List (HloOp τ sig (Elt F))) (X : Valuation τ sig (Elt F)) (r : Ref sig .tc)
    (h : ops.Forall fun op => Proc.devRef .tc r ∉ op.writes) :
    StableHlo.after ops X (Proc.devRef .tc r) = X (Proc.devRef .tc r) :=
  StableHlo.after_of_forall_not_mem (b := Proc.devRef .tc r) ops X (List.forall_iff_forall_mem.mp h)

/-- Contents carried to a buffer's type and back are the contents. -/
theorem ofBuf_toBuf {T : BufTy} {Val : EltTy → Type} (x : StableHlo.TRef sig T) (v : T.Contents Val) :
    x.ofBuf (x.toBuf v) = v := by
  obtain ⟨r, rfl, _, _⟩ := x
  rfl

/-- At the two index rows, the stacked table and the two takes, the buffer's type is the value's: carrying contents
    across is the identity. -/
theorem ofBuf_main_v1 {Val : EltTy → Type} (p1 p2 p3) (u : (main_v1 : Ref sig .tc).ty.Contents Val) :
    (StableHlo.TRef.of main_v1 p1 p2 p3 : StableHlo.TRef sig ⟨S800000, .i32⟩).ofBuf u = u := rfl

theorem ofBuf_main_v3 {Val : EltTy → Type} (p1 p2 p3) (u : (main_v3 : Ref sig .tc).ty.Contents Val) :
    (StableHlo.TRef.of main_v3 p1 p2 p3 : StableHlo.TRef sig ⟨S800000, .i32⟩).ofBuf u = u := rfl

theorem ofBuf_main_v6 {Val : EltTy → Type} (p1 p2 p3) (u : (main_v6 : Ref sig .tc).ty.Contents Val) :
    (StableHlo.TRef.of main_v6 p1 p2 p3 : StableHlo.TRef sig ⟨S2x8x50000, .f32⟩).ofBuf u = u := rfl

theorem toBuf_main_v7 {Val : EltTy → Type} (p1 p2 p3) (v : (⟨S2x8x800000, .f32⟩ : BufTy).Contents Val) :
    (StableHlo.TRef.of main_v7 p1 p2 p3 : StableHlo.TRef sig ⟨S2x8x800000, .f32⟩).toBuf v = v := rfl

theorem toBuf_main_v8 {Val : EltTy → Type} (p1 p2 p3) (v : (⟨S2x8x800000, .f32⟩ : BufTy).Contents Val) :
    (StableHlo.TRef.of main_v8 p1 p2 p3 : StableHlo.TRef sig ⟨S2x8x800000, .f32⟩).toBuf v = v := rfl

/-! The first stretch, from any contents X: the two index rows and the stacked table. -/

theorem s0_v1 (X : Valuation τ sig (Elt F)) :
    (StableHlo.after (hostOps0 (F := F)) X (Proc.devRef .tc main_v1) : IVec S800000 32)
      = srcRow (X (Proc.devRef .tc main_arg6)) := by
  after_results_simp
  unfold srcRow
  rfl

theorem s0_v3 (X : Valuation τ sig (Elt F)) :
    (StableHlo.after (hostOps0 (F := F)) X (Proc.devRef .tc main_v3) : IVec S800000 32)
      = dstRow (X (Proc.devRef .tc main_arg6)) := by
  after_results_simp
  unfold dstRow
  rfl

theorem s0_v6 (X : Valuation τ sig (Elt F)) :
    (StableHlo.after (hostOps0 (F := F)) X (Proc.devRef .tc main_v6) : FVec F S2x8x50000 .f32)
      = stackN (F := F) (X (Proc.devRef .tc main_arg0)) (X (Proc.devRef .tc main_arg1)) := by
  after_results_simp
  unfold stackN
  rfl

/-! The second stretch: the take of the stacked table along the from-row; the rows and the table stay. -/

theorem s1_v7 (X : Valuation τ sig (Elt F)) :
    (StableHlo.after (hostOps0_1 (F := F)) X (Proc.devRef .tc main_v7) : FVec F S2x8x800000 .f32)
      = takeCols (F := F) (X (Proc.devRef .tc main_v6)) (X (Proc.devRef .tc main_v1)) := by
  after_results_simp
  simp only [ofBuf_toBuf, ofBuf_main_v1, ofBuf_main_v6, toBuf_main_v7]
  unfold takeCols wrapCol
  rfl

theorem s1_v1 (X : Valuation τ sig (Elt F)) :
    StableHlo.after (hostOps0_1 (F := F)) X (Proc.devRef .tc main_v1) = X (Proc.devRef .tc main_v1) :=
  keep_of _ X main_v1 (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem s1_v3 (X : Valuation τ sig (Elt F)) :
    StableHlo.after (hostOps0_1 (F := F)) X (Proc.devRef .tc main_v3) = X (Proc.devRef .tc main_v3) :=
  keep_of _ X main_v3 (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem s1_v6 (X : Valuation τ sig (Elt F)) :
    StableHlo.after (hostOps0_1 (F := F)) X (Proc.devRef .tc main_v6) = X (Proc.devRef .tc main_v6) :=
  keep_of _ X main_v6 (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

/-! The third stretch: the take along the to-row; the rows and the first take stay. -/

theorem s2_v8 (X : Valuation τ sig (Elt F)) :
    (StableHlo.after (hostOps0_2 (F := F)) X (Proc.devRef .tc main_v8) : FVec F S2x8x800000 .f32)
      = takeCols (F := F) (X (Proc.devRef .tc main_v6)) (X (Proc.devRef .tc main_v3)) := by
  after_results_simp
  simp only [ofBuf_toBuf, ofBuf_main_v3, ofBuf_main_v6, toBuf_main_v8]
  unfold takeCols wrapCol
  rfl

theorem s2_v1 (X : Valuation τ sig (Elt F)) :
    StableHlo.after (hostOps0_2 (F := F)) X (Proc.devRef .tc main_v1) = X (Proc.devRef .tc main_v1) :=
  keep_of _ X main_v1 (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem s2_v3 (X : Valuation τ sig (Elt F)) :
    StableHlo.after (hostOps0_2 (F := F)) X (Proc.devRef .tc main_v3) = X (Proc.devRef .tc main_v3) :=
  keep_of _ X main_v3 (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem s2_v7 (X : Valuation τ sig (Elt F)) :
    StableHlo.after (hostOps0_2 (F := F)) X (Proc.devRef .tc main_v7) = X (Proc.devRef .tc main_v7) :=
  keep_of _ X main_v7 (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

/-! The fourth stretch: the two takes unstacked; the rows stay. -/

theorem s3_v10 (X : Valuation τ sig (Elt F)) :
    (StableHlo.after (hostOps0_3 (F := F)) X (Proc.devRef .tc main_v10) : FVec F S8x800000 .f32)
      = firstE (F := F) (X (Proc.devRef .tc main_v7)) := by
  after_results_simp
  unfold firstE
  rfl

theorem s3_v12 (X : Valuation τ sig (Elt F)) :
    (StableHlo.after (hostOps0_3 (F := F)) X (Proc.devRef .tc main_v12) : FVec F S8x800000 .f32)
      = secondE (F := F) (X (Proc.devRef .tc main_v7)) := by
  after_results_simp
  unfold secondE
  rfl

theorem s3_v14 (X : Valuation τ sig (Elt F)) :
    (StableHlo.after (hostOps0_3 (F := F)) X (Proc.devRef .tc main_v14) : FVec F S8x800000 .f32)
      = firstE (F := F) (X (Proc.devRef .tc main_v8)) := by
  after_results_simp
  unfold firstE
  rfl

theorem s3_v16 (X : Valuation τ sig (Elt F)) :
    (StableHlo.after (hostOps0_3 (F := F)) X (Proc.devRef .tc main_v16) : FVec F S8x800000 .f32)
      = secondE (F := F) (X (Proc.devRef .tc main_v8)) := by
  after_results_simp
  unfold secondE
  rfl

theorem s3_v1 (X : Valuation τ sig (Elt F)) :
    StableHlo.after (hostOps0_3 (F := F)) X (Proc.devRef .tc main_v1) = X (Proc.devRef .tc main_v1) :=
  keep_of _ X main_v1 (by
    simp only [hostOps0_3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem s3_v3 (X : Valuation τ sig (Elt F)) :
    StableHlo.after (hostOps0_3 (F := F)) X (Proc.devRef .tc main_v3) = X (Proc.devRef .tc main_v3) :=
  keep_of _ X main_v3 (by
    simp only [hostOps0_3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

end Stretches

/-- What the region finds in a buffer: the launch contents after the four stretches, run in turn. -/
theorem V_split (b : Ref sig .tc) :
    V m c b = StableHlo.after (hostOps0_3 (F := Ideal)) (StableHlo.after (hostOps0_2 (F := Ideal))
      (StableHlo.after (hostOps0_1 (F := Ideal)) (StableHlo.after (hostOps0 (F := Ideal)) (fun b => m (c, b)))))
        (Proc.devRef .tc b) := by
  show StableHlo.after (List.flatten [hostOps0 (F := Ideal), hostOps0_1, hostOps0_2, hostOps0_3]) (fun b => m (c, b))
    (Proc.devRef .tc b) = _
  rw [List.flatten_cons, List.flatten_cons, List.flatten_cons, List.flatten_cons, List.flatten_nil, List.append_nil,
    StableHlo.after_append, StableHlo.after_append, StableHlo.after_append]

/-- The region finds the from-row of `edge_index` in `main_v1` … -/
theorem V_src : (V m c main_v1 : IVec S800000 32) = srcRow (m ((c : Thread nD τ).loc main_arg6)) := by
  refine (V_split m c main_v1).trans ?_
  rewrite [s3_v1, s2_v1, s1_v1, s0_v1]
  rfl

/-- … and the to-row in `main_v3`. -/
theorem V_dst : (V m c main_v3 : IVec S800000 32) = dstRow (m ((c : Thread nD τ).loc main_arg6)) := by
  refine (V_split m c main_v3).trans ?_
  rewrite [s3_v3, s2_v3, s1_v3, s0_v3]
  rfl

/-- The region's first input: the from-end magnitudes. -/
theorem V_vi : (V m c main_v10 : FVec Ideal S8x800000 .f32)
    = firstE (F := Ideal) (takeCols (stackN (m ((c : Thread nD τ).loc main_arg0)) (m ((c : Thread nD τ).loc main_arg1)))
        (srcRow (m ((c : Thread nD τ).loc main_arg6)))) := by
  refine (V_split m c main_v10).trans ?_
  rewrite [s3_v10, s2_v7, s1_v7, s0_v6, s0_v1]
  rfl

/-- Its third input: the from-end angles. -/
theorem V_ai : (V m c main_v12 : FVec Ideal S8x800000 .f32)
    = secondE (F := Ideal) (takeCols (stackN (m ((c : Thread nD τ).loc main_arg0)) (m ((c : Thread nD τ).loc main_arg1)))
        (srcRow (m ((c : Thread nD τ).loc main_arg6)))) := by
  refine (V_split m c main_v12).trans ?_
  rewrite [s3_v12, s2_v7, s1_v7, s0_v6, s0_v1]
  rfl

/-- Its second input: the to-end magnitudes. -/
theorem V_vj : (V m c main_v14 : FVec Ideal S8x800000 .f32)
    = firstE (F := Ideal) (takeCols (stackN (m ((c : Thread nD τ).loc main_arg0)) (m ((c : Thread nD τ).loc main_arg1)))
        (dstRow (m ((c : Thread nD τ).loc main_arg6)))) := by
  refine (V_split m c main_v14).trans ?_
  rewrite [s3_v14, s2_v8, s1_v6, s1_v3, s0_v6, s0_v3]
  rfl

/-- Its fourth input: the to-end angles. -/
theorem V_aj : (V m c main_v16 : FVec Ideal S8x800000 .f32)
    = secondE (F := Ideal) (takeCols (stackN (m ((c : Thread nD τ).loc main_arg0)) (m ((c : Thread nD τ).loc main_arg1)))
        (dstRow (m ((c : Thread nD τ).loc main_arg6)))) := by
  refine (V_split m c main_v16).trans ?_
  rewrite [s3_v16, s2_v8, s1_v6, s1_v3, s0_v6, s0_v3]
  rfl

end Cert.KernelIdeal.Prefix

end
-- ==== Proof.Loss.lean ====
/- The loss both programs return, from the two tables of accumulated flows.

   With P and Q the accumulated active and reactive flow per bus, p and q the injected powers and v the voltage
   magnitudes, the loss is
     10 · mean over the 8 batches of ∑ over buses of ((P − p)² + (Q − q)²)
       + mean over the batches of ∑ over buses of (max(0.95 − v, 0)² + max(v − 1.05, 0)²),
   each mean a sum divided by 8. Both programs spell it with the same operations in the same order; it is written here
   once, over the side conditions its operations take (the programs supply theirs). -/
import Idealize.ShloMosaic.PureOps.Ideal
import Idealize.ShloMosaic.PureOps.Contract

noncomputable section

open Idealize.ShloMosaic

namespace Cert.Flow

variable {F : FTy → Type} [FloatOps F]

/-- max(x, 0), entry by entry, as `jax.nn.relu` prints. -/
def relu (hb : (⟨0, ![]⟩ : Shape).BroadcastsInDim ⟨2, ![8, 50000]⟩ (![] : Fin 0 → Fin 2)) (x : FVec F ⟨2, ![8, 50000]⟩ .f32) :
    FVec F ⟨2, ![8, 50000]⟩ .f32 :=
  maximumf x (broadcastInDim (⟨2, ![8, 50000]⟩ : Shape) ![] hb (constant ⟨0, ![]⟩ .f32 0x00000000#32))

/-- The mean over the 8 batches of the sums over the buses of a table: sum along the buses, sum the 8, divide by 8. -/
def batchMean (h1 : (⟨2, ![8, 50000]⟩ : Shape).ReducesTo [1] ⟨1, ![8]⟩) (h0 : (⟨1, ![8]⟩ : Shape).ReducesTo [0] ⟨0, ![]⟩)
    (hu : 0 < (⟨0, ![]⟩ : Shape).numel) (x : FVec F ⟨2, ![8, 50000]⟩ .f32) : FVec F ⟨0, ![]⟩ .f32 :=
  Host.divf (Host.reduceAdd (Host.reduceAdd x (constant ⟨0, ![]⟩ .f32 0x00000000#32) h1 hu) (constant ⟨0, ![]⟩ .f32 0x00000000#32) h0 hu)
    (constant ⟨0, ![]⟩ .f32 0x41000000#32)

/-- The loss from the accumulated flows `P`, `Q`, the voltage magnitudes `v` and the injected powers `p`, `q`. -/
def loss (hb : (⟨0, ![]⟩ : Shape).BroadcastsInDim ⟨2, ![8, 50000]⟩ (![] : Fin 0 → Fin 2))
    (h1 : (⟨2, ![8, 50000]⟩ : Shape).ReducesTo [1] ⟨1, ![8]⟩) (h0 : (⟨1, ![8]⟩ : Shape).ReducesTo [0] ⟨0, ![]⟩)
    (hu : 0 < (⟨0, ![]⟩ : Shape).numel) (P Q v p q : FVec F ⟨2, ![8, 50000]⟩ .f32) : FVec F ⟨0, ![]⟩ .f32 :=
  addf
    (mulf (constant ⟨0, ![]⟩ .f32 0x41200000#32)
      (batchMean h1 h0 hu (addf (mulf (subf P p) (subf P p)) (mulf (subf Q q) (subf Q q)))))
    (batchMean h1 h0 hu
      (addf
        (mulf (relu hb (subf (broadcastInDim (⟨2, ![8, 50000]⟩ : Shape) ![] hb (constant ⟨0, ![]⟩ .f32 0x3F733333#32)) v))
          (relu hb (subf (broadcastInDim (⟨2, ![8, 50000]⟩ : Shape) ![] hb (constant ⟨0, ![]⟩ .f32 0x3F733333#32)) v)))
        (mulf (relu hb (subf v (broadcastInDim (⟨2, ![8, 50000]⟩ : Shape) ![] hb (constant ⟨0, ![]⟩ .f32 0x3F866666#32))))
          (relu hb (subf v (broadcastInDim (⟨2, ![8, 50000]⟩ : Shape) ![] hb (constant ⟨0, ![]⟩ .f32 0x3F866666#32)))))))

end Cert.Flow

end
-- ==== Proof.KTail.lean ====
/- What the kernel's host operations after its region compute.

   They stack the region's two flow tables, scatter-add the stack into a zero table at the wrapped from-numbers, take the
   two halves back out, and apply the loss. Over any contents `X` of the buffers when the tail starts, the result buffer
   is the loss of those two halves; and each half, read at a bus, is zero plus the sum, over the edges whose wrapped
   from-number is that bus, of the corresponding flow table's entry. -/
import proofs.«411077_j9019431321744_2_alg».proof.Proof.KernelIdealFrame
import proofs.«411077_j9019431321744_2_alg».proof.Proof.KDefs
import proofs.«411077_j9019431321744_2_alg».proof.Proof.Loss
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo Idealize.ShloMosaic.ValueIdx

namespace Cert.KernelIdeal.Tail

open Cert.KernelIdeal Cert.KernelIdeal.Gen Cert.KernelIdeal.GenP Cert.KernelIdeal.K Cert.Flow

/-- The first half of the stacked scatter at bus `n` of batch `r`: zero plus the first table's entries of the edges that land there. -/
theorem firstN_scat_apply (p q : FVec Ideal S8x800000 .f32) (w : IVec S800000 32) (r : Fin 8) (n : Fin 50000) :
    firstN (scat (F := Ideal) p q w) (ix2 r n)
      = Ideal.ofBits .f32 0x00000000#32
        + ∑ e ∈ Finset.univ.filter (fun e : Fin 800000 => (wrap (w (ix1 e))).toInt = (n.val : ℤ)), p (ix2 r e) := by
  unfold firstN scat
  refine (unstack0_apply (n := 50000) slices_S2x8x50000_S1x8x50000_0_0_0 shapeCasts_S1x8x50000_S8x50000 _ r n).trans ?_
  refine (scatterAdd_rows3 scatter_S2x8x50000_S800000x1_S2x8x800000_01_2_2_1 rfl rfl rfl rfl _ (wrapCol w) (stackE p q)
    (0 : Fin 2) r n).trans ?_
  refine congrArg (fun z => Ideal.ofBits .f32 0x00000000#32 + z) ?_
  refine Finset.sum_congr (Finset.filter_congr fun e _ => by rw [wrapCol_apply]) fun e _ => ?_
  unfold stackE
  exact (stack_apply (n := 800000) bcast_S8x800000_S1x8x800000_1_2 concatenates_S1x8x800000_S1x8x800000_S2x8x800000_d0 p q
    (0 : Fin 2) r e).trans (if_pos rfl)

/-- The second half: the same with the second table. -/
theorem secondN_scat_apply (p q : FVec Ideal S8x800000 .f32) (w : IVec S800000 32) (r : Fin 8) (n : Fin 50000) :
    secondN (scat (F := Ideal) p q w) (ix2 r n)
      = Ideal.ofBits .f32 0x00000000#32
        + ∑ e ∈ Finset.univ.filter (fun e : Fin 800000 => (wrap (w (ix1 e))).toInt = (n.val : ℤ)), q (ix2 r e) := by
  unfold secondN scat
  refine (unstack1_apply (n := 50000) slices_S2x8x50000_S1x8x50000_1_0_0 shapeCasts_S1x8x50000_S8x50000 _ r n).trans ?_
  refine (scatterAdd_rows3 scatter_S2x8x50000_S800000x1_S2x8x800000_01_2_2_1 rfl rfl rfl rfl _ (wrapCol w) (stackE p q)
    (1 : Fin 2) r n).trans ?_
  refine congrArg (fun z => Ideal.ofBits .f32 0x00000000#32 + z) ?_
  refine Finset.sum_congr (Finset.filter_congr fun e _ => by rw [wrapCol_apply]) fun e _ => ?_
  unfold stackE
  exact (stack_apply (n := 800000) bcast_S8x800000_S1x8x800000_1_2 concatenates_S1x8x800000_S1x8x800000_S2x8x800000_d0 p q
    (1 : Fin 2) r e).trans (if_neg (by decide))

variable {F : FTy → Type} [FloatOps F]

/-- The result buffer after the tail, from any contents `X` at its start. -/
theorem tail_result (X : Valuation τ sig (Elt F)) :
    (StableHlo.after (List.flatten [hostOps1, hostOps1_1, hostOps1_2, hostOps1_3, hostOps1_4]) X (Proc.devRef .tc main_v54) : FVec F S_ .f32)
      = loss bcast_S_S8x50000 reducesTo_S8x50000_S8_d1 reducesTo_S8_S_d0 h_S_
          (firstN (scat (X (Proc.devRef .tc main_v17_0)) (X (Proc.devRef .tc main_v17_1)) (X (Proc.devRef .tc main_v1))))
          (secondN (scat (X (Proc.devRef .tc main_v17_0)) (X (Proc.devRef .tc main_v17_1)) (X (Proc.devRef .tc main_v1))))
          (X (Proc.devRef .tc main_arg0)) (X (Proc.devRef .tc main_arg4)) (X (Proc.devRef .tc main_arg5)) := by
  simp only [List.flatten_cons, List.flatten_nil, List.append_nil, StableHlo.after_append]
  after_results_simp
  simp only [TRef.ofBuf, TRef.toBuf, cast_eq]
  unfold loss batchMean relu scat firstN secondN stackE wrapCol
  rfl

end Cert.KernelIdeal.Tail

end
-- ==== Proof.KValue.lean ====
/- The value of the kernel's program at the exact reals.

   Its result buffer is the loss of two tables P, Q of accumulated flows. Under the precondition's to-bus range, P and Q
   read at a bus are `calcP` and `calcQ` of the inputs: an edge in the sum at bus n has wrapped from-number n, so its
   from-end `take` keeps the gathered entry; its to-number is a bus by the precondition, so its to-end `take` does too;
   the region's flow of those four entries and the line's r, x is the edge's flow (the body negates x as `0 − x`). -/
import proofs.«411077_j9019431321744_2_alg».proof.Proof.KernelIdealFrame
import proofs.«411077_j9019431321744_2_alg».proof.Proof.Region
import proofs.«411077_j9019431321744_2_alg».proof.Proof.KDefs
import proofs.«411077_j9019431321744_2_alg».proof.Proof.KPrefix
import proofs.«411077_j9019431321744_2_alg».proof.Proof.KTail
import proofs.«411077_j9019431321744_2_alg».proof.Proof.Loss
import proofs.«411077_j9019431321744_2_alg».proof.Proof.Flow
import Idealize.ShloMosaic.Lib.Pipeline.Value
import Idealize.ShloMosaic.Lib.Affine

set_option maxRecDepth 16384

noncomputable section

open Idealize.ShloMosaic Idealize.ShloMosaic.TcCoe Idealize.SL.Sem Idealize.ShloMosaic.StableHlo Idealize.ShloMosaic.ValueIdx

namespace Cert.KernelIdeal.Value

open Cert.KernelIdeal Cert.KernelIdeal.Gen Cert.KernelIdeal.GenP Cert.KernelIdeal.K Cert.KernelIdeal.Region Cert.Flow

/-- The body's active flow on one entry is the edge's active flow. -/
theorem sP_eq (vi vj ai aj r x : EReal) : sP (F := Ideal) vi vj ai aj r x = flowP vi vj ai aj r x :=
  flowP_zero_sub vi vj ai aj r x

/-- The body's reactive flow on one entry is the edge's reactive flow. -/
theorem sQ_eq (vi vj ai aj r x : EReal) : sQ (F := Ideal) vi vj ai aj r x = flowQ vi vj ai aj r x :=
  flowQ_zero_sub vi vj ai aj r x

variable (m : (ℓ : Loc nD τ sig) → Buf (Elt Ideal) ℓ) (ρ : Dev nD → PrngReg)

/-- The buffers' contents when the tail starts: the region's arrays as the run leaves them, the rest as the region found them. -/
abbrev tailStart (c : Dev nD) : Valuation τ sig (Elt Ideal) :=
  Pipeline.withArrays spec0 c (V0 m c) fun w => (dats m 0 c).arrAt w cfg0.N

theorem start_p (c : Dev nD) : tailStart m c (Proc.devRef .tc main_v17_0) = arrP m c :=
  (Pipeline.withArrays_arr spec0 launch0.win.arr_inj c _ _ 6).trans (final6 m c)

theorem start_q (c : Dev nD) : tailStart m c (Proc.devRef .tc main_v17_1) = arrQ m c :=
  (Pipeline.withArrays_arr spec0 launch0.win.arr_inj c _ _ 7).trans (final7 m c)

theorem start_src (c : Dev nD) : tailStart m c (Proc.devRef .tc main_v1) = V m c main_v1 :=
  Pipeline.withArrays_of_ne _ c (V0 m c) _ main_v1 (by exact (by decide : ∀ w, Pipeline.arrRef spec0 w ≠ main_v1))

theorem start_arg0 (c : Dev nD) : tailStart m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

theorem start_arg4 (c : Dev nD) : tailStart m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem start_arg5 (c : Dev nD) : tailStart m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

/-- The kernel's table of accumulated active flows. -/
abbrev tableP (c : Dev nD) : FVec Ideal S8x50000 .f32 := firstN (scat (arrP m c) (arrQ m c) (V m c main_v1))
/-- The kernel's table of accumulated reactive flows. -/
abbrev tableQ (c : Dev nD) : FVec Ideal S8x50000 .f32 := secondN (scat (arrP m c) (arrQ m c) (V m c main_v1))

/-- The result buffer after the run's tail is the loss of the two tables. -/
theorem result_eq (c : Dev nD) :
    Pipeline.afterTail₀ cfgs (dats m) 0 (V0 m) [hostOps1, hostOps1_1, hostOps1_2, hostOps1_3, hostOps1_4] c main_v54
      = loss bcast_S_S8x50000 reducesTo_S8x50000_S8_d1 reducesTo_S8_S_d0 h_S_ (tableP m c) (tableQ m c)
          (m ((c : Thread nD τ).loc main_arg0)) (m ((c : Thread nD τ).loc main_arg4)) (m ((c : Thread nD τ).loc main_arg5)) := by
  unfold Pipeline.afterTail₀
  refine (Tail.tail_result (F := Ideal) (tailStart m c)).trans ?_
  rw [start_p, start_q, start_src, start_arg0, start_arg4, start_arg5]

/-- What the region finds at one edge, where the edge's wrapped from-number names a bus and its to-number is a bus:
    the four gathered entries and the line's two. -/
theorem arrP_apply (c : Dev nD) (r : Fin 8) (e : Fin 800000)
    (hs : 0 ≤ (wrap (srcRow (m ((c : Thread nD τ).loc main_arg6)) (ix1 e))).toInt ∧ (wrap (srcRow (m ((c : Thread nD τ).loc main_arg6)) (ix1 e))).toInt < 50000)
    (hd : 0 ≤ (wrap (dstRow (m ((c : Thread nD τ).loc main_arg6)) (ix1 e))).toInt ∧ (wrap (dstRow (m ((c : Thread nD τ).loc main_arg6)) (ix1 e))).toInt < 50000) :
    arrP m c (ix2 r e)
      = edgeP (m ((c : Thread nD τ).loc main_arg0)) (m ((c : Thread nD τ).loc main_arg1)) (m ((c : Thread nD τ).loc main_arg2)) (m ((c : Thread nD τ).loc main_arg3))
          (srcRow (m ((c : Thread nD τ).loc main_arg6))) (dstRow (m ((c : Thread nD τ).loc main_arg6))) r e := by
  unfold arrP
  rw [Prefix.V_vi, Prefix.V_vj, Prefix.V_ai, Prefix.V_aj, V_main_arg2, V_main_arg3,
    Prefix.firstE_takeCols_apply _ _ _ r e hs, Prefix.firstE_takeCols_apply _ _ _ r e hd,
    Prefix.secondE_takeCols_apply _ _ _ r e hs, Prefix.secondE_takeCols_apply _ _ _ r e hd, sP_eq]
  rfl

theorem arrQ_apply (c : Dev nD) (r : Fin 8) (e : Fin 800000)
    (hs : 0 ≤ (wrap (srcRow (m ((c : Thread nD τ).loc main_arg6)) (ix1 e))).toInt ∧ (wrap (srcRow (m ((c : Thread nD τ).loc main_arg6)) (ix1 e))).toInt < 50000)
    (hd : 0 ≤ (wrap (dstRow (m ((c : Thread nD τ).loc main_arg6)) (ix1 e))).toInt ∧ (wrap (dstRow (m ((c : Thread nD τ).loc main_arg6)) (ix1 e))).toInt < 50000) :
    arrQ m c (ix2 r e)
      = edgeQ (m ((c : Thread nD τ).loc main_arg0)) (m ((c : Thread nD τ).loc main_arg1)) (m ((c : Thread nD τ).loc main_arg2)) (m ((c : Thread nD τ).loc main_arg3))
          (srcRow (m ((c : Thread nD τ).loc main_arg6))) (dstRow (m ((c : Thread nD τ).loc main_arg6))) r e := by
  unfold arrQ
  rw [Prefix.V_vi, Prefix.V_vj, Prefix.V_ai, Prefix.V_aj, V_main_arg2, V_main_arg3,
    Prefix.firstE_takeCols_apply _ _ _ r e hs, Prefix.firstE_takeCols_apply _ _ _ r e hd,
    Prefix.secondE_takeCols_apply _ _ _ r e hs, Prefix.secondE_takeCols_apply _ _ _ r e hd, sQ_eq]
  rfl

/-- A to-number in [0, 50000) is its own wrapped number. -/
theorem wrap_of_range (w : BitVec 32) (h : 0 ≤ w.toInt ∧ w.toInt < 50000) : wrap w = w := by
  unfold wrap
  have : IntOp.cmpi .slt w 0#32 = 0#1 := by
    rcases BitVec.eq_zero_or_eq_one (IntOp.cmpi .slt w 0#32) with h0 | h1
    · exact h0
    · have := IntOp.cmpi_slt.mp h1
      have hz : (0#32 : BitVec 32).toInt = 0 := by decide
      omega
  rw [this]
  exact select_zero _ _

/-- Under the to-bus range, the kernel's table of active flows at a bus is `calcP`. -/
theorem tableP_apply (c : Dev nD) (r : Fin 8) (n : Fin 50000)
    (hdst : ∀ i : S800000.Idx, 0 ≤ (dstRow (m ((c : Thread nD τ).loc main_arg6)) i).toInt ∧ (dstRow (m ((c : Thread nD τ).loc main_arg6)) i).toInt < 50000) :
    tableP m c (ix2 r n)
      = calcP (m ((c : Thread nD τ).loc main_arg0)) (m ((c : Thread nD τ).loc main_arg1)) (m ((c : Thread nD τ).loc main_arg2)) (m ((c : Thread nD τ).loc main_arg3))
          (srcRow (m ((c : Thread nD τ).loc main_arg6))) (dstRow (m ((c : Thread nD τ).loc main_arg6))) r n := by
  unfold tableP
  rw [Tail.firstN_scat_apply, Prefix.V_src]
  unfold calcP
  refine congrArg (HAdd.hAdd (Ideal.ofBits .f32 0x00000000#32)) ?_
  refine Finset.sum_congr rfl fun e he => ?_
  have hland : (wrap (srcRow (m ((c : Thread nD τ).loc main_arg6)) (ix1 e))).toInt = (n.val : ℤ) := (Finset.mem_filter.mp he).2
  have hn : n.val < 50000 := n.isLt
  have hd := hdst (ix1 e)
  exact arrP_apply m c r e ⟨by omega, by omega⟩ (by rw [wrap_of_range _ hd]; exact hd)

theorem tableQ_apply (c : Dev nD) (r : Fin 8) (n : Fin 50000)
    (hdst : ∀ i : S800000.Idx, 0 ≤ (dstRow (m ((c : Thread nD τ).loc main_arg6)) i).toInt ∧ (dstRow (m ((c : Thread nD τ).loc main_arg6)) i).toInt < 50000) :
    tableQ m c (ix2 r n)
      = calcQ (m ((c : Thread nD τ).loc main_arg0)) (m ((c : Thread nD τ).loc main_arg1)) (m ((c : Thread nD τ).loc main_arg2)) (m ((c : Thread nD τ).loc main_arg3))
          (srcRow (m ((c : Thread nD τ).loc main_arg6))) (dstRow (m ((c : Thread nD τ).loc main_arg6))) r n := by
  unfold tableQ
  rw [Tail.secondN_scat_apply, Prefix.V_src]
  unfold calcQ
  refine congrArg (HAdd.hAdd (Ideal.ofBits .f32 0x00000000#32)) ?_
  refine Finset.sum_congr rfl fun e he => ?_
  have hland : (wrap (srcRow (m ((c : Thread nD τ).loc main_arg6)) (ix1 e))).toInt = (n.val : ℤ) := (Finset.mem_filter.mp he).2
  have hn : n.val < 50000 := n.isLt
  have hd := hdst (ix1 e)
  exact arrQ_apply m c r e ⟨by omega, by omega⟩ (by rw [wrap_of_range _ hd]; exact hd)

/-- The run, read: the result buffer at the loss of the two tables, every argument unchanged. -/
theorem run : θ_run defs (onTc (τ := τ) (main (F := Ideal))) ⟨m, fun _ => 0, ρ⟩ (fun r => ∀ c : Dev nD,
      r.2.mem ((c.tc : Thread nD τ).loc main_v54)
        = loss bcast_S_S8x50000 reducesTo_S8x50000_S8_d1 reducesTo_S8_S_d0 h_S_ (tableP m c) (tableQ m c)
            (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v54 (Pipeline.mem_restRefs_of main_v54 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Value

end
-- ==== Proof.RefValue.lean ====
/- The reference's accumulated flows, read at one bus.

   The reference gathers the two ends' magnitudes and angles along the edges (each gather clamps its wrapped bus
   number into the table), forms each edge's active and reactive flow, and scatter-adds them into a zero table at the
   wrapped from-number of the edge. Read at bus n of batch b, each scatter stage is zero plus the sum, over the edges
   whose wrapped from-number is n, of that edge's flow: the functions `calcP` and `calcQ`. -/
import proofs.«411077_j9019431321744_2_alg».proof.Proof.Gen.ReferenceIdeal.Read
import proofs.«411077_j9019431321744_2_alg».proof.Proof.Flow
import proofs.«411077_j9019431321744_2_alg».proof.Proof.ScatterRead
import proofs.«411077_j9019431321744_2_alg».proof.Proof.GatherRead
import proofs.«411077_j9019431321744_2_alg».proof.Proof.TakeRead

noncomputable section

open Idealize.ShloMosaic Idealize.ShloMosaic.ValueIdx

namespace Cert.ReferenceIdeal.RefValue

open Cert.ReferenceIdeal Cert.ReferenceIdeal.Gen Cert.ReferenceIdeal.Read Cert.Flow

variable (x0 x1 : (⟨S8x50000, .f32⟩ : BufTy).Contents (Elt Ideal)) (x2 x3 : (⟨S8x800000, .f32⟩ : BufTy).Contents (Elt Ideal))
  (x6 : (⟨S2x800000, .i32⟩ : BufTy).Contents (Elt Ideal))

/-- A gather of a bus table along a column whose entry at edge e is a wrapped bus number reads the table at that
    number's column. -/
theorem gather_wrapped (tbl : (⟨S8x50000, .f32⟩ : BufTy).Contents (Elt Ideal))
    (col : (⟨S800000x1, .i32⟩ : BufTy).Contents (Elt Ideal)) (w : BitVec 32) (b : Fin 8) (e : Fin 800000)
    (hcol : col (ix2 e (0 : Fin 1)) = wrap w) :
    Host.gather gather_S8x50000_S800000x1_S8x800000_0_1_n_n_1_1_81 tbl col (ix2 b e) = tbl (ix2 b (busCol w)) := by
  rw [gather_cols2 _ rfl rfl rfl rfl rfl rfl rfl]
  refine congrArg (fun c => tbl (ix2 b c)) (Fin.ext ?_)
  show min (col (ix2 e (0 : Fin 1))).toInt.toNat 49999 = min (wrap w).toInt.toNat 49999
  rw [hcol]

/-- The six index columns of the program at edge e: the wrapped from-number or to-number of e. -/
theorem col15 (e : Fin 800000) :
    val_main_v15 (F := Ideal) x6 (ix2 e (0 : Fin 1)) = wrap (val_main_v1 (F := Ideal) x6 (ix1 e)) :=
  wrapped_col_apply bcast_S_S800000 bcast_S800000_S800000x1_0 (val_main_v1 (F := Ideal) x6) e

theorem col22 (e : Fin 800000) :
    val_main_v22 (F := Ideal) x6 (ix2 e (0 : Fin 1)) = wrap (val_main_v3 (F := Ideal) x6 (ix1 e)) :=
  wrapped_col_apply bcast_S_S800000 bcast_S800000_S800000x1_0 (val_main_v3 (F := Ideal) x6) e

theorem col29 (e : Fin 800000) :
    val_main_v29 (F := Ideal) x6 (ix2 e (0 : Fin 1)) = wrap (val_main_v1 (F := Ideal) x6 (ix1 e)) :=
  wrapped_col_apply bcast_S_S800000 bcast_S800000_S800000x1_0 (val_main_v1 (F := Ideal) x6) e

theorem col36 (e : Fin 800000) :
    val_main_v36 (F := Ideal) x6 (ix2 e (0 : Fin 1)) = wrap (val_main_v3 (F := Ideal) x6 (ix1 e)) :=
  wrapped_col_apply bcast_S_S800000 bcast_S800000_S800000x1_0 (val_main_v3 (F := Ideal) x6) e

theorem col56 (e : Fin 800000) :
    val_main_v56 (F := Ideal) x6 (ix2 e (0 : Fin 1)) = wrap (val_main_v1 (F := Ideal) x6 (ix1 e)) :=
  wrapped_col_apply bcast_S_S800000 bcast_S800000_S800000x1_0 (val_main_v1 (F := Ideal) x6) e

theorem col64 (e : Fin 800000) :
    val_main_v64 (F := Ideal) x6 (ix2 e (0 : Fin 1)) = wrap (val_main_v1 (F := Ideal) x6 (ix1 e)) :=
  wrapped_col_apply bcast_S_S800000 bcast_S800000_S800000x1_0 (val_main_v1 (F := Ideal) x6) e

/-- The four gathers at (b, e): the magnitude and the angle at the edge's two ends. -/
theorem v16_at (b : Fin 8) (e : Fin 800000) :
    val_main_v16 (F := Ideal) x0 x6 (ix2 b e) = x0 (ix2 b (busCol (val_main_v1 (F := Ideal) x6 (ix1 e)))) :=
  gather_wrapped x0 _ _ b e (col15 x6 e)

theorem v23_at (b : Fin 8) (e : Fin 800000) :
    val_main_v23 (F := Ideal) x0 x6 (ix2 b e) = x0 (ix2 b (busCol (val_main_v3 (F := Ideal) x6 (ix1 e)))) :=
  gather_wrapped x0 _ _ b e (col22 x6 e)

theorem v30_at (b : Fin 8) (e : Fin 800000) :
    val_main_v30 (F := Ideal) x1 x6 (ix2 b e) = x1 (ix2 b (busCol (val_main_v1 (F := Ideal) x6 (ix1 e)))) :=
  gather_wrapped x1 _ _ b e (col29 x6 e)

theorem v37_at (b : Fin 8) (e : Fin 800000) :
    val_main_v37 (F := Ideal) x1 x6 (ix2 b e) = x1 (ix2 b (busCol (val_main_v3 (F := Ideal) x6 (ix1 e)))) :=
  gather_wrapped x1 _ _ b e (col36 x6 e)

/-- The active-flow update of edge e in batch b is the edge's active flow. -/
theorem edge_flowP (b : Fin 8) (e : Fin 800000) :
    val_main_v45 (F := Ideal) x0 x1 x2 x3 x6 (ix2 b e)
      = edgeP x0 x1 x2 x3 (val_main_v1 (F := Ideal) x6) (val_main_v3 (F := Ideal) x6) b e := by
  show (val_main_v16 (F := Ideal) x0 x6 (ix2 b e) * val_main_v23 (F := Ideal) x0 x6 (ix2 b e))
      * (Ideal.div (x2 (ix2 b e)) (x2 (ix2 b e) * x2 (ix2 b e) + x3 (ix2 b e) * x3 (ix2 b e))
            * Ideal.cos (val_main_v30 (F := Ideal) x1 x6 (ix2 b e) - val_main_v37 (F := Ideal) x1 x6 (ix2 b e))
          + Ideal.div (-(x3 (ix2 b e))) (x2 (ix2 b e) * x2 (ix2 b e) + x3 (ix2 b e) * x3 (ix2 b e))
            * Ideal.sin (val_main_v30 (F := Ideal) x1 x6 (ix2 b e) - val_main_v37 (F := Ideal) x1 x6 (ix2 b e))) = _
  rw [v16_at, v23_at, v30_at, v37_at]
  rfl

/-- The reactive-flow update of edge e in batch b is the edge's reactive flow. -/
theorem edge_flowQ (b : Fin 8) (e : Fin 800000) :
    val_main_v49 (F := Ideal) x0 x1 x2 x3 x6 (ix2 b e)
      = edgeQ x0 x1 x2 x3 (val_main_v1 (F := Ideal) x6) (val_main_v3 (F := Ideal) x6) b e := by
  show (val_main_v16 (F := Ideal) x0 x6 (ix2 b e) * val_main_v23 (F := Ideal) x0 x6 (ix2 b e))
      * (Ideal.div (x2 (ix2 b e)) (x2 (ix2 b e) * x2 (ix2 b e) + x3 (ix2 b e) * x3 (ix2 b e))
            * Ideal.sin (val_main_v30 (F := Ideal) x1 x6 (ix2 b e) - val_main_v37 (F := Ideal) x1 x6 (ix2 b e))
          - Ideal.div (-(x3 (ix2 b e))) (x2 (ix2 b e) * x2 (ix2 b e) + x3 (ix2 b e) * x3 (ix2 b e))
            * Ideal.cos (val_main_v30 (F := Ideal) x1 x6 (ix2 b e) - val_main_v37 (F := Ideal) x1 x6 (ix2 b e))) = _
  rw [v16_at, v23_at, v30_at, v37_at]
  rfl

/-- The reference's accumulated active flow at bus `n` of batch `b`. -/
theorem ref_calcP (b : Fin 8) (n : Fin 50000) :
    val_main_v57 (F := Ideal) x0 x1 x2 x3 x6 (ix2 b n)
      = calcP x0 x1 x2 x3 (val_main_v1 (F := Ideal) x6) (val_main_v3 (F := Ideal) x6) b n := by
  unfold val_main_v57
  rw [scatterAdd_rows2 _ rfl rfl rfl rfl]
  unfold calcP
  refine congrArg₂ (fun u v : EReal => u + v) rfl ?_
  exact Finset.sum_congr (Finset.filter_congr fun e _ => by rw [col56])
    (fun e _ => edge_flowP x0 x1 x2 x3 x6 b e)

/-- The reference's accumulated reactive flow at bus `n` of batch `b`. -/
theorem ref_calcQ (b : Fin 8) (n : Fin 50000) :
    val_main_v65 (F := Ideal) x0 x1 x2 x3 x6 (ix2 b n)
      = calcQ x0 x1 x2 x3 (val_main_v1 (F := Ideal) x6) (val_main_v3 (F := Ideal) x6) b n := by
  unfold val_main_v65
  rw [scatterAdd_rows2 _ rfl rfl rfl rfl]
  unfold calcQ
  refine congrArg₂ (fun u v : EReal => u + v) rfl ?_
  exact Finset.sum_congr (Finset.filter_congr fun e _ => by rw [col64])
    (fun e _ => edge_flowQ x0 x1 x2 x3 x6 b e)

end Cert.ReferenceIdeal.RefValue

end
-- ==== Proof.RefLoss.lean ====
/- The reference's result is the loss of its own two accumulated-flow stages: its last operations, one by one, are the
   operations of `loss`. -/
import proofs.«411077_j9019431321744_2_alg».proof.Proof.Gen.ReferenceIdeal.Read
import proofs.«411077_j9019431321744_2_alg».proof.Proof.Loss

noncomputable section

open Idealize.ShloMosaic

namespace Cert.ReferenceIdeal.RefLoss

open Cert.ReferenceIdeal Cert.ReferenceIdeal.Gen Cert.ReferenceIdeal.Read Cert.Flow

variable {F : FTy → Type} [FloatOps F]

/-- The reference's result is the loss of its two accumulated-flow stages. -/
theorem ref_loss (x0 x1 : (⟨S8x50000, .f32⟩ : BufTy).Contents (Elt F)) (x2 x3 : (⟨S8x800000, .f32⟩ : BufTy).Contents (Elt F))
    (x4 x5 : (⟨S8x50000, .f32⟩ : BufTy).Contents (Elt F)) (x6 : (⟨S2x800000, .i32⟩ : BufTy).Contents (Elt F)) :
    val_main_v87 (F := F) x0 x1 x2 x3 x4 x5 x6
      = loss (F := F) bcast_S_S8x50000 reducesTo_S8x50000_S8_d1 reducesTo_S8_S_d0 h_S_
          (val_main_v57 (F := F) x0 x1 x2 x3 x6) (val_main_v65 (F := F) x0 x1 x2 x3 x6) x0 x4 x5 := by
  unfold val_main_v87 val_main_v86 val_main_v85 val_main_v84 val_main_v83 val_main_v82 val_main_v81 val_main_v80
    val_main_v79 val_main_v78 val_main_v77 val_main_v76 val_main_v75 val_main_v74 val_main_v73 val_main_v72 val_main_v71
    val_main_v70 val_main_v69 val_main_v68 val_main_v67 val_main_v66
    val_main_cst_12 val_main_cst_13 val_main_cst_14 val_main_cst_15 val_main_cst_16 val_main_cst_17 val_main_cst_18
    val_main_cst_19 val_main_cst_20 val_main_call0_v0 val_main_call0_cst val_main_call1_v0 val_main_call1_cst
    loss batchMean relu
  rfl

end Cert.ReferenceIdeal.RefLoss

end
-- ==== Proof.PreDecode.lean ====
/- What the added conjunct of the precondition says, read back out of its printed form: every to-bus number of
   `edge_index` (its second row) lies in [0, 50000). The precondition is a conjunction of `jnp.all`s; the last one is
   the conjunction over all edges of (0 ≤ n) and (n < 50000) as signed comparisons of words. -/
import proofs.«411077_j9019431321744_2_alg».proof.Pre_finite_inputs
import Idealize.ShloMosaic.Lib.ReduceAll
import Idealize.ShloMosaic.Lib.Affine
import Idealize.ShloMosaic.Lib.ValueIdx

noncomputable section

open Idealize.ShloMosaic Idealize.ShloMosaic.ValueIdx

namespace Cert.Flow

open Cert.Pre_finite_inputs Cert.Pre_finite_inputs.Facts

variable [Cert.Pre_finite_inputs.Facts] {F : FTy → Type} [FloatOps F]

/-- The second row of `edge_index` as the precondition (and both programs) spell it: the to-bus number of every edge. -/
abbrev dstRow (ei : IVec S2x800000 32) : IVec S800000 32 :=
  shapeCast S800000 (extractStridedSlice S1x800000 ![1, 0] ei slices_S2x800000_S1x800000_1_0) shapeCasts_S1x800000_S800000

/-- Under the precondition every to-bus number is a bus: 0 ≤ n < 50000. -/
theorem dst_in_range (a0 a1 : FVec F S8x50000 .f32) (a2 a3 : FVec F S8x800000 .f32) (a4 a5 : FVec F S8x50000 .f32)
    (ei : IVec S2x800000 32) (h : fn (F := F) a0 a1 a2 a3 a4 a5 ei = fun _ => 1#1) (i : S800000.Idx) :
    0 ≤ (dstRow ei i).toInt ∧ (dstRow ei i).toInt < 50000 := by
  haveI : Subsingleton S_.Idx := ⟨fun a b => funext fun d => d.elim0⟩
  have h0 := congrFun h ix0
  dsimp only [fn, fn_part1, fn_part2] at h0
  have h1 := (IntOp.andi_eq_one.mp h0).2
  have h2 := Host.reduce_andi_all _ _ _ _ _ h1 i
  obtain ⟨hge, hlt⟩ := IntOp.andi_eq_one.mp h2
  have hge' := IntOp.cmpi_sge.mp hge
  have hlt' := IntOp.cmpi_slt.mp hlt
  refine ⟨?_, ?_⟩
  · exact hge'
  · exact hlt'

end Cert.Flow

end
-- ==== Proof.lean ====
/- The certificate: a power-flow loss computed by a tiled elementwise kernel between host gathers and a host
   scatter-add, against its plain jnp reference, over the extended reals.

   Both programs gather the two ends' voltage magnitudes and angles along 800000 edges, form each edge's active and
   reactive flow, accumulate the flows per from-bus, and take a loss of the mismatch. They differ in how they read a
   bus number that names no bus: the reference's indexing clamps it, the kernel's `take` fills the entry. An edge
   whose from-number names no bus is dropped by both scatters; so the two agree wherever every TO-number is a bus,
   which is the precondition's added conjunct. The three frames are the generated ones; `preserves` has no entry; `algebraic` joins the kernel's run
   (its result the loss of its two accumulated-flow tables) and the reference's run (the same loss of its two scatter
   stages), the tables being equal bus by bus: both are zero plus the sum of the edge flows over the edges that land
   on the bus. -/
import proofs.«411077_j9019431321744_2_alg».proof.Defs
import proofs.«411077_j9019431321744_2_alg».proof.Proof.Gen.Kernel
import proofs.«411077_j9019431321744_2_alg».proof.Proof.Gen.KernelIdeal
import proofs.«411077_j9019431321744_2_alg».proof.Proof.Gen.ReferenceIdeal
import proofs.«411077_j9019431321744_2_alg».proof.Proof.Gen.Pre_finite_inputs
import proofs.«411077_j9019431321744_2_alg».proof.Proof.KernelFrame
import proofs.«411077_j9019431321744_2_alg».proof.Proof.KernelIdealFrame
import proofs.«411077_j9019431321744_2_alg».proof.Proof.Gen.ReferenceIdeal.Run
import proofs.«411077_j9019431321744_2_alg».proof.Proof.Gen.ReferenceIdeal.Read
import proofs.«411077_j9019431321744_2_alg».proof.Proof.KValue
import proofs.«411077_j9019431321744_2_alg».proof.Proof.RefValue
import proofs.«411077_j9019431321744_2_alg».proof.Proof.RefLoss
import proofs.«411077_j9019431321744_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The reference's table of accumulated active flows is the kernel's, bus by bus, where every to-number is a bus. -/
theorem tables_P (m : (ℓ : Loc Cert.KernelIdeal.nD Cert.KernelIdeal.τ Cert.KernelIdeal.sig) → Buf (Elt Ideal) ℓ) (c : Dev Cert.KernelIdeal.nD)
    (hdst : ∀ i, 0 ≤ (Cert.KernelIdeal.K.dstRow (m ((c : Thread Cert.KernelIdeal.nD Cert.KernelIdeal.τ).loc Cert.KernelIdeal.main_arg6)) i).toInt
      ∧ (Cert.KernelIdeal.K.dstRow (m ((c : Thread Cert.KernelIdeal.nD Cert.KernelIdeal.τ).loc Cert.KernelIdeal.main_arg6)) i).toInt < 50000) :
    Cert.ReferenceIdeal.Read.val_main_v57 (F := Ideal)
        (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
        (m ((c : Thread Cert.KernelIdeal.nD Cert.KernelIdeal.τ).loc Cert.KernelIdeal.main_arg6))
      = Cert.KernelIdeal.Value.tableP m c := by
  funext i
  obtain ⟨b, n, rfl⟩ : ∃ (b : Fin 8) (n : Fin 50000), i = ix2 b n := ⟨i 0, i 1, eq_ix2 i⟩
  exact (Cert.ReferenceIdeal.RefValue.ref_calcP _ _ _ _ _ b n).trans (Cert.KernelIdeal.Value.tableP_apply m c b n hdst).symm

/-- The same for the reactive flows. -/
theorem tables_Q (m : (ℓ : Loc Cert.KernelIdeal.nD Cert.KernelIdeal.τ Cert.KernelIdeal.sig) → Buf (Elt Ideal) ℓ) (c : Dev Cert.KernelIdeal.nD)
    (hdst : ∀ i, 0 ≤ (Cert.KernelIdeal.K.dstRow (m ((c : Thread Cert.KernelIdeal.nD Cert.KernelIdeal.τ).loc Cert.KernelIdeal.main_arg6)) i).toInt
      ∧ (Cert.KernelIdeal.K.dstRow (m ((c : Thread Cert.KernelIdeal.nD Cert.KernelIdeal.τ).loc Cert.KernelIdeal.main_arg6)) i).toInt < 50000) :
    Cert.ReferenceIdeal.Read.val_main_v65 (F := Ideal)
        (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
        (m ((c : Thread Cert.KernelIdeal.nD Cert.KernelIdeal.τ).loc Cert.KernelIdeal.main_arg6))
      = Cert.KernelIdeal.Value.tableQ m c := by
  funext i
  obtain ⟨b, n, rfl⟩ : ∃ (b : Fin 8) (n : Fin 50000), i = ix2 b n := ⟨i 0, i 1, eq_ix2 i⟩
  exact (Cert.ReferenceIdeal.RefValue.ref_calcQ _ _ _ _ _ b n).trans (Cert.KernelIdeal.Value.tableQ_apply m c b n hdst).symm

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdst : ∀ (c : Dev Cert.KernelIdeal.nD) i,
      0 ≤ (Cert.KernelIdeal.K.dstRow (m ((c : Thread Cert.KernelIdeal.nD Cert.KernelIdeal.τ).loc Cert.KernelIdeal.main_arg6)) i).toInt
      ∧ (Cert.KernelIdeal.K.dstRow (m ((c : Thread Cert.KernelIdeal.nD Cert.KernelIdeal.τ).loc Cert.KernelIdeal.main_arg6)) i).toInt < 50000 :=
    fun c i => Cert.Flow.dst_in_range _ _ _ _ _ _ _ (hpre c) i
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => Cert.Flow.loss Cert.KernelIdeal.Gen.bcast_S_S8x50000 Cert.KernelIdeal.Gen.reducesTo_S8x50000_S8_d1 Cert.KernelIdeal.Gen.reducesTo_S8_S_d0 Cert.KernelIdeal.Gen.h_S_
      (Cert.KernelIdeal.Value.tableP m c) (Cert.KernelIdeal.Value.tableQ m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Value.run m ρ)
    obtain ⟨hres, h0, h1, h2, h3, h4, h5, h6⟩ := h c
    exact ⟨h0, h1, hres, h0, h1, h2, h3, h4, h5, h6⟩
  · refine (θ_run Cert.ReferenceIdeal.defs _ _).mono (fun r h c => ?_) (Cert.ReferenceIdeal.Value.run (F := Ideal) m' ρ')
    obtain ⟨g0, g1, gres, g0', g1', g2, g3, g4, g5, g6⟩ := h c
    obtain ⟨e0, e1, e2, e3, e4, e5, e6⟩ := hagree c
    refine ⟨g0.trans e0, g1.trans e1, ?_, g0', g1', g2, g3, g4, g5, g6⟩
    rw [gres, Cert.ReferenceIdeal.Read.val_main_v87_eq, e0, e1, e2, e3, e4, e5, e6, Cert.ReferenceIdeal.RefLoss.ref_loss,
      tables_P m c (hdst c), tables_Q m c (hdst c)]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
